-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1024 : Shape := ⟨2, ![8192, 1024]⟩
abbrev S256 : Shape := ⟨1, ![256]⟩
abbrev S1024x256 : Shape := ⟨2, ![1024, 256]⟩
abbrev S1024 : Shape := ⟨1, ![1024]⟩
abbrev S1024x1024 : Shape := ⟨2, ![1024, 1024]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part6 {F : FTy → Type} [FloatOps F] (main_arg21 : FVec F S1024 .f32) (main_v98 : IVec S_ 1) (main_v101 : IVec S1024x256 1) (main_c_39 : IVec S_ 1) : IVec S_ 1 :=
  let main_v102 : IVec S_ 1 := (fun x v => Host.reduce IntOp.andi x v reducesTo_S1024x256_S_d0_1 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S1024x256 .f32) (main_arg19 : FVec F S1024x1024 .f32) (main_arg20 : FVec F S1024x256 .f32) (main_arg21 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024x256 .f32 := Host.absf main_arg18
  let main_cst_34 : FVec F S_ .f32 := constant S_ .f32 0x7F800000#32
  let main_v90 : FVec F S1024x256 .f32 := broadcastInDim S1024x256 ![] bcast_S_S1024x256 main_cst_34
  let main_v91 : IVec S1024x256 1 := cmpf .olt main_v89 main_v90
  let main_c_35 : IVec S_ 1 := constantI S_ 1 1#1
  let main_v92 : IVec S_ 1 := (fun x v => Host.reduce IntOp.andi x v reducesTo_S1024x256_S_d0_1 h_S_) main_v91 main_c_35
  let main_v93 : IVec S_ 1 := andi main_v88 main_v92
  let main_v94 : FVec F S1024x1024 .f32 := Host.absf main_arg19
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024x256 .f32 := Host.absf main_arg20
  let main_cst_38 : FVec F S_ .f32 := constant S_ .f32 0x7F800000#32
  let main_v100 : FVec F S1024x256 .f32 := broadcastInDim S1024x256 ![] bcast_S_S1024x256 main_cst_38
  let main_v101 : IVec S1024x256 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S1024x256 .f32) (main_arg15 : FVec F S1024x1024 .f32) (main_arg16 : FVec F S1024x256 .f32) (main_arg17 : FVec F S1024 .f32) (main_arg18 : FVec F S1024x256 .f32) (main_arg19 : FVec F S1024x1024 .f32) (main_arg20 : FVec F S1024x256 .f32) (main_arg21 : FVec F S1024 .f32) (main_v63 : IVec S_ 1) (main_v67 : IVec S_ 1) : IVec S_ 1 :=
  let main_v68 : IVec S_ 1 := andi main_v63 main_v67
  let main_v69 : FVec F S1024x256 .f32 := Host.absf main_arg14
  let main_cst_26 : FVec F S_ .f32 := constant S_ .f32 0x7F800000#32
  let main_v70 : FVec F S1024x256 .f32 := broadcastInDim S1024x256 ![] bcast_S_S1024x256 main_cst_26
  let main_v71 : IVec S1024x256 1 := cmpf .olt main_v69 main_v70
  let main_c_27 : IVec S_ 1 := constantI S_ 1 1#1
  let main_v72 : IVec S_ 1 := (fun x v => Host.reduce IntOp.andi x v reducesTo_S1024x256_S_d0_1 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024x256 .f32 := Host.absf main_arg16
  let main_cst_30 : FVec F S_ .f32 := constant S_ .f32 0x7F800000#32
  let main_v80 : FVec F S1024x256 .f32 := broadcastInDim S1024x256 ![] bcast_S_S1024x256 main_cst_30
  let main_v81 : IVec S1024x256 1 := cmpf .olt main_v79 main_v80
  let main_c_31 : IVec S_ 1 := constantI S_ 1 1#1
  let main_v82 : IVec S_ 1 := (fun x v => Host.reduce IntOp.andi x v reducesTo_S1024x256_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1024x1024 .f32) (main_arg12 : FVec F S1024x256 .f32) (main_arg13 : FVec F S1024 .f32) (main_arg14 : FVec F S1024x256 .f32) (main_arg15 : FVec F S1024x1024 .f32) (main_arg16 : FVec F S1024x256 .f32) (main_arg17 : FVec F S1024 .f32) (main_arg18 : FVec F S1024x256 .f32) (main_arg19 : FVec F S1024x1024 .f32) (main_arg20 : FVec F S1024x256 .f32) (main_arg21 : FVec F S1024 .f32) (main_v48 : IVec S_ 1) (main_v49 : FVec F S1024x256 .f32) (main_v50 : FVec F S1024x256 .f32) : IVec S_ 1 :=
  let main_v51 : IVec S1024x256 1 := cmpf .olt main_v49 main_v50
  let main_c_19 : IVec S_ 1 := constantI S_ 1 1#1
  let main_v52 : IVec S_ 1 := (fun x v => Host.reduce IntOp.andi x v reducesTo_S1024x256_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x256 .f32 := Host.absf main_arg12
  let main_cst_22 : FVec F S_ .f32 := constant S_ .f32 0x7F800000#32
  let main_v60 : FVec F S1024x256 .f32 := broadcastInDim S1024x256 ![] bcast_S_S1024x256 main_cst_22
  let main_v61 : IVec S1024x256 1 := cmpf .olt main_v59 main_v60
  let main_c_23 : IVec S_ 1 := constantI S_ 1 1#1
  let main_v62 : IVec S_ 1 := (fun x v => Host.reduce IntOp.andi x v reducesTo_S1024x256_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S256 .f32) (main_arg8 : FVec F S1024x256 .f32) (main_arg9 : FVec F S1024 .f32) (main_arg10 : FVec F S1024x256 .f32) (main_arg11 : FVec F S1024x1024 .f32) (main_arg12 : FVec F S1024x256 .f32) (main_arg13 : FVec F S1024 .f32) (main_arg14 : FVec F S1024x256 .f32) (main_arg15 : FVec F S1024x1024 .f32) (main_arg16 : FVec F S1024x256 .f32) (main_arg17 : FVec F S1024 .f32) (main_arg18 : FVec F S1024x256 .f32) (main_arg19 : FVec F S1024x1024 .f32) (main_arg20 : FVec F S1024x256 .f32) (main_arg21 : FVec F S1024 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x256 .f32 := Host.absf main_arg10
  let main_cst_18 : FVec F S_ .f32 := constant S_ .f32 0x7F800000#32
  let main_v50 : FVec F S1024x256 .f32 := broadcastInDim S1024x256 ![] bcast_S_S1024x256 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S8192x256 .f32) (main_arg5 : FVec F S256 .f32) (main_arg6 : FVec F S256 .f32) (main_arg7 : FVec F S256 .f32) (main_arg8 : FVec F S1024x256 .f32) (main_arg9 : FVec F S1024 .f32) (main_arg10 : FVec F S1024x256 .f32) (main_arg11 : FVec F S1024x1024 .f32) (main_arg12 : FVec F S1024x256 .f32) (main_arg13 : FVec F S1024 .f32) (main_arg14 : FVec F S1024x256 .f32) (main_arg15 : FVec F S1024x1024 .f32) (main_arg16 : FVec F S1024x256 .f32) (main_arg17 : FVec F S1024 .f32) (main_arg18 : FVec F S1024x256 .f32) (main_arg19 : FVec F S1024x1024 .f32) (main_arg20 : FVec F S1024x256 .f32) (main_arg21 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8192x256 .f32) (main_arg1 : FVec F S8192x256 .f32) (main_arg2 : FVec F S8192x256 .f32) (main_arg3 : FVec F S8192x1024 .f32) (main_arg4 : FVec F S8192x256 .f32) (main_arg5 : FVec F S256 .f32) (main_arg6 : FVec F S256 .f32) (main_arg7 : FVec F S256 .f32) (main_arg8 : FVec F S1024x256 .f32) (main_arg9 : FVec F S1024 .f32) (main_arg10 : FVec F S1024x256 .f32) (main_arg11 : FVec F S1024x1024 .f32) (main_arg12 : FVec F S1024x256 .f32) (main_arg13 : FVec F S1024 .f32) (main_arg14 : FVec F S1024x256 .f32) (main_arg15 : FVec F S1024x1024 .f32) (main_arg16 : FVec F S1024x256 .f32) (main_arg17 : FVec F S1024 .f32) (main_arg18 : FVec F S1024x256 .f32) (main_arg19 : FVec F S1024x1024 .f32) (main_arg20 : FVec F S1024x256 .f32) (main_arg21 : FVec F S1024 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8192x256 : Shape := ⟨2, ![8192, 256]⟩
abbrev S8192x1024 : Shape := ⟨2, ![8192, 1024]⟩
abbrev S256 : Shape := ⟨1, ![256]⟩
abbrev S1024x256 : Shape := ⟨2, ![1024, 256]⟩
abbrev S1024 : Shape := ⟨1, ![1024]⟩
abbrev S1024x1024 : Shape := ⟨2, ![1024, 1024]⟩
abbrev S1x256 : Shape := ⟨2, ![1, 256]⟩
abbrev S1x1024 : Shape := ⟨2, ![1, 1024]⟩
abbrev S1024x512 : Shape := ⟨2, ![1024, 512]⟩
abbrev S2048x512 : Shape := ⟨2, ![2048, 512]⟩
abbrev S2048x1024 : Shape := ⟨2, ![2048, 1024]⟩
abbrev S2048 : Shape := ⟨1, ![2048]⟩
abbrev S1x2048 : Shape := ⟨2, ![1, 2048]⟩
abbrev S512x256 : Shape := ⟨2, ![512, 256]⟩
abbrev S512x1024 : Shape := ⟨2, ![512, 1024]⟩
abbrev S512x512 : Shape := ⟨2, ![512, 512]⟩
abbrev S512x2048 : Shape := ⟨2, ![512, 2048]⟩

abbrev nBuf : Space → Nat
  | .hbm => 40
  | .vmem => 25
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1024x256, .f32⟩
  | .hbm, ⟨9, _⟩ => ⟨S1024, .f32⟩
  | .hbm, ⟨10, _⟩ => ⟨S1024x256, .f32⟩
  | .hbm, ⟨11, _⟩ => ⟨S1024x1024, .f32⟩
  | .hbm, ⟨12, _⟩ => ⟨S1024x256, .f32⟩
  | .hbm, ⟨13, _⟩ => ⟨S1024, .f32⟩
  | .hbm, ⟨14, _⟩ => ⟨S1024x256, .f32⟩
  | .hbm, ⟨15, _⟩ => ⟨S1024x1024, .f32⟩
  | .hbm, ⟨16, _⟩ => ⟨S1024x256, .f32⟩
  | .hbm, ⟨17, _⟩ => ⟨S1024, .f32⟩
  | .hbm, ⟨18, _⟩ => ⟨S1024x256, .f32⟩
  | .hbm, ⟨19, _⟩ => ⟨S1024x1024, .f32⟩
  | .hbm, ⟨20, _⟩ => ⟨S1024x256, .f32⟩
  | .hbm, ⟨21, _⟩ => ⟨S1024, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x1024, .f32⟩
  | .hbm, ⟨26, _⟩ => ⟨S1024x512, .f32⟩
  | .hbm, ⟨27, _⟩ => ⟨S1024x512, .f32⟩
  | .hbm, ⟨28, _⟩ => ⟨S2048x512, .f32⟩
  | .hbm, ⟨29, _⟩ => ⟨S2048x512, .bf16⟩
  | .hbm, ⟨30, _⟩ => ⟨S2048x1024, .f32⟩
  | .hbm, ⟨31, _⟩ => ⟨S2048x1024, .bf16⟩
  | .hbm, ⟨32, _⟩ => ⟨S2048, .f32⟩
  | .hbm, ⟨33, _⟩ => ⟨S1x2048, .f32⟩
  | .hbm, ⟨34, _⟩ => ⟨S1024x512, .f32⟩
  | .hbm, ⟨35, _⟩ => ⟨S1024x512, .bf16⟩
  | .hbm, ⟨36, _⟩ => ⟨S1024x1024, .bf16⟩
  | .hbm, ⟨37, _⟩ => ⟨S1x1024, .f32⟩
  | .hbm, ⟨38, _⟩ => ⟨S8192x1024, .f32⟩
  | .hbm, ⟨39, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1024x256, .f32⟩
  | .local _ .vmem, ⟨14, _⟩ => ⟨S1x1024, .f32⟩
  | .local _ .vmem, ⟨15, _⟩ => ⟨S2048x512, .bf16⟩
  | .local _ .vmem, ⟨16, _⟩ => ⟨S2048x1024, .bf16⟩
  | .local _ .vmem, ⟨17, _⟩ => ⟨S1x2048, .f32⟩
  | .local _ .vmem, ⟨18, _⟩ => ⟨S1024x512, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x256, .f32⟩
  | .local _ .vmem, ⟨24, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16_0 : Ref sig .tc := ⟨.hbm, 38, rfl⟩
abbrev main_v16_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S256_S1x256 : S256.ShapeCasts S1x256
  shapeCasts_S1024_S1x1024 : S1024.ShapeCasts S1x1024
  concatenates_S1024x256_S1024x256_S1024x512_d1 : Shape.Concatenates [S1024x256, S1024x256] S1024x512 1
  concatenates_S1024x512_S1024x512_S2048x512_d0 : Shape.Concatenates [S1024x512, S1024x512] S2048x512 0
  bitsLt_bf16_f32 : FTy.bits .bf16 < FTy.bits .f32
  concatenates_S1024x1024_S1024x1024_S2048x1024_d0 : Shape.Concatenates [S1024x1024, S1024x1024] S2048x1024 0
  concatenates_S1024_S1024_S2048_d0 : Shape.Concatenates [S1024, S1024] S2048 0
  shapeCasts_S2048_S1x2048 : S2048.ShapeCasts S1x2048
  inb_S512x256_S512x256_0_0 : ∀ a, (![0, 0] : Fin 2 → Nat) a + S512x256.size a ≤ S512x256.size a
  h_S512x256 : 0 < S512x256.numel
  inb_S512x1024_S512x1024_0_0 : ∀ a, (![0, 0] : Fin 2 → Nat) a + S512x1024.size a ≤ S512x1024.size a
  h_S512x1024 : 0 < S512x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  concatenates_S512x256_S512x256_S512x512_d1 : Shape.Concatenates [S512x256, S512x256] S512x512 1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x256_S1024x256_S512x1024_1_1_0_0_n_n_wf : DotDims.WF S512x256 S1024x256 S512x1024 [1] [1] [0] [0] [] []
  dot_S512x512_S2048x512_S512x2048_1_1_0_0_n_n_wf : DotDims.WF S512x512 S2048x512 S512x2048 [1] [1] [0] [0] [] []
  dot_S512x1024_S2048x1024_S512x2048_1_1_0_0_n_n_wf : DotDims.WF S512x1024 S2048x1024 S512x2048 [1] [1] [0] [0] [] []
  dot_S512x512_S1024x512_S512x1024_1_1_0_0_n_n_wf : DotDims.WF S512x512 S1024x512 S512x1024 [1] [1] [0] [0] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x256.size a
  hwx0_4 : ∀ i : grid0.Coords, EltTy.bits .f32 = 32 ∨ (Rect.block (s := S8192x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x256.size a
  hwx0_8 : ∀ i : grid0.Coords, EltTy.bits .f32 = 32 ∨ (Rect.block (s := S1024x256) S1024x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x512.size a ≤ S2048x512.size a
  hwx0_10 : ∀ i : grid0.Coords, EltTy.bits .bf16 = 32 ∨ (Rect.block (s := S2048x512) S2048x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1024.size a ≤ S2048x1024.size a
  hwx0_11 : ∀ i : grid0.Coords, EltTy.bits .bf16 = 32 ∨ (Rect.block (s := S2048x1024) S2048x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S1024x512.size a
  hwx0_13 : ∀ i : grid0.Coords, EltTy.bits .bf16 = 32 ∨ (Rect.block (s := S1024x512) S1024x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S1024x1024.size a
  hwx0_14 : ∀ i : grid0.Coords, EltTy.bits .bf16 = 32 ∨ (Rect.block (s := S1024x1024) S1024x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1024.size a ≤ S8192x1024.size a
  hwx0_16 : ∀ i : grid0.Coords, EltTy.bits .f32 = 32 ∨ (Rect.block (s := S8192x1024) S512x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S8192x256.size a
  hwx0_17 : ∀ i : grid0.Coords, EltTy.bits .f32 = 32 ∨ (Rect.block (s := S8192x256) S512x256.size (cc0_transform_17 i) (hinb0_17 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S2048x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S2048x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1024x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1024x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16_0) S512x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v16_1) S512x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x1024 : Shape := ⟨2, ![8192, 1024]⟩
abbrev S256 : Shape := ⟨1, ![256]⟩
abbrev S1024x256 : Shape := ⟨2, ![1024, 256]⟩
abbrev S1024 : Shape := ⟨1, ![1024]⟩
abbrev S1024x1024 : Shape := ⟨2, ![1024, 1024]⟩
abbrev S1x256 : Shape := ⟨2, ![1, 256]⟩
abbrev S_ : Shape := ⟨0, ![]⟩
abbrev S256x1024 : Shape := ⟨2, ![256, 1024]⟩
abbrev S1x1024 : Shape := ⟨2, ![1, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1024x256, .f32⟩
  | .hbm, ⟨9, _⟩ => ⟨S1024, .f32⟩
  | .hbm, ⟨10, _⟩ => ⟨S1024x256, .f32⟩
  | .hbm, ⟨11, _⟩ => ⟨S1024x1024, .f32⟩
  | .hbm, ⟨12, _⟩ => ⟨S1024x256, .f32⟩
  | .hbm, ⟨13, _⟩ => ⟨S1024, .f32⟩
  | .hbm, ⟨14, _⟩ => ⟨S1024x256, .f32⟩
  | .hbm, ⟨15, _⟩ => ⟨S1024x1024, .f32⟩
  | .hbm, ⟨16, _⟩ => ⟨S1024x256, .f32⟩
  | .hbm, ⟨17, _⟩ => ⟨S1024, .f32⟩
  | .hbm, ⟨18, _⟩ => ⟨S1024x256, .f32⟩
  | .hbm, ⟨19, _⟩ => ⟨S1024x1024, .f32⟩
  | .hbm, ⟨20, _⟩ => ⟨S1024x256, .f32⟩
  | .hbm, ⟨21, _⟩ => ⟨S1024, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S256x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x256, .f32⟩
  | .hbm, ⟨45, _⟩ => ⟨S8192x256, .i1⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S8192x256, .f32⟩
  | .hbm, ⟨50, _⟩ => ⟨S8192x256, .f32⟩
  | .hbm, ⟨51, _⟩ => ⟨S1x256, .f32⟩
  | .hbm, ⟨52, _⟩ => ⟨S8192x256, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x1024, .f32⟩
  | .hbm, ⟨62, _⟩ => ⟨S256x1024, .f32⟩
  | .hbm, ⟨63, _⟩ => ⟨S8192x1024, .f32⟩
  | .hbm, ⟨64, _⟩ => ⟨S1024x1024, .f32⟩
  | .hbm, ⟨65, _⟩ => ⟨S8192x1024, .f32⟩
  | .hbm, ⟨66, _⟩ => ⟨S8192x1024, .f32⟩
  | .hbm, ⟨67, _⟩ => ⟨S256x1024, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S256x1024, .f32⟩
  | .hbm, ⟨82, _⟩ => ⟨S8192x1024, .f32⟩
  | .hbm, ⟨83, _⟩ => ⟨S1024x1024, .f32⟩
  | .hbm, ⟨84, _⟩ => ⟨S8192x1024, .f32⟩
  | .hbm, ⟨85, _⟩ => ⟨S8192x1024, .f32⟩
  | .hbm, ⟨86, _⟩ => ⟨S256x1024, .f32⟩
  | .hbm, ⟨87, _⟩ => ⟨S8192x1024, .f32⟩
  | .hbm, ⟨88, _⟩ => ⟨S8192x1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192x1024, .f32⟩
  | .hbm, ⟨99, _⟩ => ⟨S8192x1024, .f32⟩
  | .hbm, ⟨100, _⟩ => ⟨S256x1024, .f32⟩
  | .hbm, ⟨101, _⟩ => ⟨S8192x1024, .f32⟩
  | .hbm, ⟨102, _⟩ => ⟨S8192x1024, .f32⟩
  | .hbm, ⟨103, _⟩ => ⟨S1024x1024, .f32⟩
  | .hbm, ⟨104, _⟩ => ⟨S8192x1024, .f32⟩
  | .hbm, ⟨105, _⟩ => ⟨S8192x1024, .f32⟩
  | .hbm, ⟨106, _⟩ => ⟨S256x1024, .f32⟩
  | .hbm, ⟨107, _⟩ => ⟨S8192x1024, .f32⟩
  | .hbm, ⟨108, _⟩ => ⟨S8192x1024, .f32⟩
  | .hbm, ⟨109, _⟩ => ⟨S1x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S_, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_call0_cst : Ref sig .tc := ⟨.hbm, 28, rfl⟩
abbrev main_call0_v0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call1_cst : Ref sig .tc := ⟨.hbm, 38, rfl⟩
abbrev main_call1_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_1 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_2 : Ref sig .tc := ⟨.hbm, 75, rfl⟩
abbrev main_v46 : Ref sig .tc := ⟨.hbm, 76, rfl⟩
abbrev main_v47 : Ref sig .tc := ⟨.hbm, 77, rfl⟩
abbrev main_cst_3 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_4 : Ref sig .tc := ⟨.hbm, 94, rfl⟩
abbrev main_v63 : Ref sig .tc := ⟨.hbm, 95, rfl⟩
abbrev main_v64 : Ref sig .tc := ⟨.hbm, 96, rfl⟩
abbrev main_cst_5 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_6 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  dot_S8192x256_S256x1024_S8192x1024_1_0_0_1_n_n_wf : DotDims.WF S8192x256 S256x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  The mathematics of one step of the decay-gated recurrent cell, row by row, on the extended reals.

  A row of the batch carries the observation `x`, its mask `m`, the time gaps `δ`, the last observed
  value `xlo` (each of width 256) and the hidden state `h` (width 1024). With the decay
  `decay y = exp (-(max y 0))`, the step is

    γx = decay (δ · wgx + bgx)                     γh = decay (δ Wghᵀ + bgh)
    last = if m > 0 then x else xlo                x̂ = m · x + (1 - m) · (γx · last + (1 - γx) · xmean)
    hd = γh · h
    z = σ (x̂ Wxzᵀ + hd Whzᵀ + m Wmzᵀ + bmz)        r = σ (x̂ Wxrᵀ + hd Whrᵀ + m Wmrᵀ + bmr)
    h̃ = tanh (x̂ Wxhᵀ + (r · hd) Whhᵀ + m Wmhᵀ + bmh)
    h' = (1 - z) · hd + z · h̃

  and the results are `h'` and `last`. The second half of the file is the arithmetic that joins a
  FUSED arrangement of the same sums to this one: a dot product over two rows laid side by side is the
  sum of the two dot products; a product against a row that is identically `hd - hd` vanishes when
  `hd` is finite; and sums may be regrouped freely (addition on the extended reals is commutative and
  associative without side conditions).
-/
import Idealize.ShloMosaic.PureOps.Ideal
import Idealize.ShloMosaic.PureOps.Ideal.Laws
import Idealize.ShloMosaic.Lib.ValueIdx
import Idealize.ShloMosaic.Lib.IdealHost

noncomputable section

namespace Cert.GruD

open Idealize.ShloMosaic

/-- The decay factor of a pre-activation: `exp (-(relu y))`. -/
def decay (y : EReal) : EReal := Ideal.exp (-(max y 0))

/-- The dot product of two rows. -/
def dotRow {K : ℕ} (a w : Fin K → EReal) : EReal := ∑ k, a k * w k

/-- The per-layer constants: every weight matrix by output row then input column, every bias by column. -/
structure Weights where
  xmean : Fin 256 → EReal
  wgx : Fin 256 → EReal
  bgx : Fin 256 → EReal
  Wgh : Fin 1024 → Fin 256 → EReal
  bgh : Fin 1024 → EReal
  Wxz : Fin 1024 → Fin 256 → EReal
  Whz : Fin 1024 → Fin 1024 → EReal
  Wmz : Fin 1024 → Fin 256 → EReal
  bmz : Fin 1024 → EReal
  Wxr : Fin 1024 → Fin 256 → EReal
  Whr : Fin 1024 → Fin 1024 → EReal
  Wmr : Fin 1024 → Fin 256 → EReal
  bmr : Fin 1024 → EReal
  Wxh : Fin 1024 → Fin 256 → EReal
  Whh : Fin 1024 → Fin 1024 → EReal
  Wmh : Fin 1024 → Fin 256 → EReal
  bmh : Fin 1024 → EReal

/-- One row of the batch. -/
structure Row where
  x : Fin 256 → EReal
  m : Fin 256 → EReal
  δ : Fin 256 → EReal
  h : Fin 1024 → EReal
  xlo : Fin 256 → EReal

variable (W : Weights) (ρ : Row)

/-- The input decay, feature by feature. -/
def gammaX (d : Fin 256) : EReal := decay (ρ.δ d * W.wgx d + W.bgx d)

/-- The hidden decay: a linear map of the gaps, then the decay. -/
def gammaH (n : Fin 1024) : EReal := decay (dotRow ρ.δ (W.Wgh n) + W.bgh n)

/-- The last observed value after this step: the observation where the mask is positive. -/
def lastObs (d : Fin 256) : EReal := Scalar.select (Ideal.cmp .ogt (ρ.m d) 0) (ρ.x d) (ρ.xlo d)

/-- The imputed input. -/
def xHat (d : Fin 256) : EReal :=
  ρ.m d * ρ.x d + (1 - ρ.m d) * (gammaX W ρ d * lastObs ρ d + (1 - gammaX W ρ d) * W.xmean d)

/-- The decayed hidden state. -/
def hDec (n : Fin 1024) : EReal := gammaH W ρ n * ρ.h n

/-- A gate's pre-activation: input, hidden and mask contributions in that grouping, then the bias. -/
def gatePre (xh mk : Fin 256 → EReal) (hd : Fin 1024 → EReal) (Wx Wm : Fin 1024 → Fin 256 → EReal)
    (Wh : Fin 1024 → Fin 1024 → EReal) (b : Fin 1024 → EReal) (n : Fin 1024) : EReal :=
  ((dotRow xh (Wx n) + dotRow hd (Wh n)) + dotRow mk (Wm n)) + b n

/-- The update gate. -/
def zGate (n : Fin 1024) : EReal :=
  Ideal.logistic (gatePre (xHat W ρ) ρ.m (hDec W ρ) W.Wxz W.Wmz W.Whz W.bmz n)

/-- The reset gate. -/
def rGate (n : Fin 1024) : EReal :=
  Ideal.logistic (gatePre (xHat W ρ) ρ.m (hDec W ρ) W.Wxr W.Wmr W.Whr W.bmr n)

/-- The candidate state. -/
def hTilde (n : Fin 1024) : EReal :=
  Ideal.tanh (gatePre (xHat W ρ) ρ.m (fun k => rGate W ρ k * hDec W ρ k) W.Wxh W.Wmh W.Whh W.bmh n)

/-- The new hidden state. -/
def hNew (n : Fin 1024) : EReal := (1 - zGate W ρ n) * hDec W ρ n + zGate W ρ n * hTilde W ρ n

/-! ## The fused arrangement -/

/-- Two rows of width 256 laid side by side. -/
def cat2 (u v : Fin 256 → EReal) (k : Fin 512) : EReal :=
  if h : k.val < 256 then u ⟨k.val, h⟩ else v ⟨k.val - 256, by omega⟩

/-- Two families of 1024 rows stacked: the first family on top. -/
def stack2 {α : Type} (A B : Fin 1024 → α) (n : Fin 2048) : α :=
  if h : n.val < 1024 then A ⟨n.val, h⟩ else B ⟨n.val - 1024, by omega⟩

theorem stack2_lo {α : Type} (A B : Fin 1024 → α) (n : Fin 1024) :
    stack2 A B ⟨n.val, by omega⟩ = A n := by
  unfold stack2; rw [dif_pos n.isLt]

theorem stack2_hi {α : Type} (A B : Fin 1024 → α) (n : Fin 1024) :
    stack2 A B ⟨1024 + n.val, by omega⟩ = B n := by
  unfold stack2
  rw [dif_neg (by simp)]
  exact congrArg B (Fin.ext (by simp))

/-- A dot product over rows laid side by side is the sum of the two dot products. -/
theorem dotRow_cat2 (u v a b : Fin 256 → EReal) :
    dotRow (cat2 u v) (cat2 a b) = dotRow u a + dotRow v b := by
  unfold dotRow
  have e := Fin.sum_univ_add (M := EReal) (a := 256) (b := 256) (fun k : Fin (256 + 256) => cat2 u v k * cat2 a b k)
  have e1 : ∀ i : Fin 256, cat2 u v (Fin.castAdd 256 i) * cat2 a b (Fin.castAdd 256 i) = u i * a i := fun i => by
    have hi : (Fin.castAdd 256 i : Fin (256 + 256)).val < 256 := i.isLt
    unfold cat2
    rw [dif_pos hi, dif_pos hi]
    rfl
  have e2 : ∀ i : Fin 256, cat2 u v (Fin.natAdd 256 i) * cat2 a b (Fin.natAdd 256 i) = v i * b i := fun i => by
    have hi : ¬ (Fin.natAdd 256 i : Fin (256 + 256)).val < 256 := by simp
    have hv : ∀ hlt, (⟨(Fin.natAdd 256 i : Fin (256 + 256)).val - 256, hlt⟩ : Fin 256) = i :=
      fun _ => Fin.ext (by simp)
    unfold cat2
    rw [dif_neg hi, dif_neg hi, hv]
  rw [e, Finset.sum_congr rfl fun i _ => e1 i, Finset.sum_congr rfl fun i _ => e2 i]

/-- The decay factor is a real number, whatever its argument. -/
theorem decay_real (y : EReal) : ∃ r : ℝ, decay y = (r : EReal) := by
  unfold decay
  have hz : (0 : EReal) ≤ max y 0 := le_max_right _ _
  generalize max y 0 = z at hz
  induction z using EReal.rec with
  | bot => exact absurd hz (by simp)
  | coe r => exact ⟨Real.exp (-r), by rw [← EReal.coe_neg, Ideal.exp_coe]⟩
  | top => exact ⟨0, by rw [EReal.neg_top, Ideal.exp_bot, EReal.coe_zero]⟩

/-- The kernel writes the decay with a subtraction from zero. -/
theorem decay_eq_zero_sub (y : EReal) : Ideal.exp (0 - max y 0) = decay y := by
  unfold decay; rw [zero_sub]

/-- A decay factor times a real number, less itself, is zero. -/
theorem decay_mul_sub_self (y : EReal) (s : ℝ) : decay y * (s : EReal) - decay y * (s : EReal) = 0 := by
  obtain ⟨r, hr⟩ := decay_real y
  rw [hr, ← EReal.coe_mul, ← EReal.coe_sub, sub_self, EReal.coe_zero]

/-- A dot product against the zero row vanishes. -/
theorem dotRow_zero_left {K : ℕ} (w : Fin K → EReal) : dotRow (fun _ => (0 : EReal)) w = 0 := by
  unfold dotRow; simp

/-- The fused pre-activation of the two gates: the side-by-side input against side-by-side weights, the
    hidden row once exactly and once through its (vanishing) remainder, then the bias. -/
def zrFused (xh mk : Fin 256 → EReal) (hd : Fin 1024 → EReal) (Wdm : Fin 2048 → Fin 512 → EReal)
    (Wh : Fin 2048 → Fin 1024 → EReal) (b : Fin 2048 → EReal) (n : Fin 2048) : EReal :=
  (dotRow (cat2 xh mk) (Wdm n) + (dotRow hd (Wh n) + dotRow (fun k => hd k - hd k) (Wh n))) + b n

/-- The fused pre-activation of the candidate. -/
def htFused (xh mk : Fin 256 → EReal) (rh : Fin 1024 → EReal) (Wdm : Fin 1024 → Fin 512 → EReal)
    (Wh : Fin 1024 → Fin 1024 → EReal) (b : Fin 1024 → EReal) (n : Fin 1024) : EReal :=
  (dotRow (cat2 xh mk) (Wdm n) + dotRow rh (Wh n)) + b n

/-- With a finite hidden row, the fused pre-activation is the gate's, under any row of weights that is the
    input's and the mask's side by side. -/
theorem fused_eq_gatePre (xh mk : Fin 256 → EReal) (hd : Fin 1024 → EReal) (hfin : ∀ k, hd k - hd k = 0)
    (wx wm : Fin 256 → EReal) (wh : Fin 1024 → EReal) (b : EReal) :
    (dotRow (cat2 xh mk) (cat2 wx wm) + (dotRow hd wh + dotRow (fun k => hd k - hd k) wh)) + b
      = ((dotRow xh wx + dotRow hd wh) + dotRow mk wm) + b := by
  have h0 : (fun k => hd k - hd k) = fun _ => (0 : EReal) := funext hfin
  rw [dotRow_cat2, h0, dotRow_zero_left, add_zero]
  congr 1
  exact add_right_comm _ _ _

/-- The candidate's fused pre-activation regrouped. -/
theorem htFused_eq (xh mk : Fin 256 → EReal) (rh : Fin 1024 → EReal)
    (wx wm : Fin 256 → EReal) (wh : Fin 1024 → EReal) (b : EReal) :
    (dotRow (cat2 xh mk) (cat2 wx wm) + dotRow rh wh) + b
      = ((dotRow xh wx + dotRow rh wh) + dotRow mk wm) + b := by
  rw [dotRow_cat2]
  congr 1
  exact add_right_comm _ _ _

/-! ## Arrays: rows, and the two results as whole-array functions -/

/-- A rank-2 array of extended reals over literal extents. -/
abbrev A2 (r c : ℕ) : Type := (⟨2, ![r, c]⟩ : Shape).Idx → EReal
/-- A rank-1 array of extended reals over a literal extent. -/
abbrev A1 (n : ℕ) : Type := (⟨1, ![n]⟩ : Shape).Idx → EReal

/-- Row `b` of a matrix. -/
def rowOf {R C : ℕ} (A : A2 R C) (b : Fin R) : Fin C → EReal := fun d => A (ValueIdx.ix2 b d)
/-- A vector by its one coordinate. -/
def vecOf {N : ℕ} (a : A1 N) : Fin N → EReal := fun n => a (ValueIdx.ix1 n)

/-- The layer's constants read off the seventeen parameter arrays. -/
def weightsOf (a5 a6 a7 : A1 256) (a8 : A2 1024 256) (a9 : A1 1024) (a10 : A2 1024 256) (a11 : A2 1024 1024)
    (a12 : A2 1024 256) (a13 : A1 1024) (a14 : A2 1024 256) (a15 : A2 1024 1024) (a16 : A2 1024 256) (a17 : A1 1024)
    (a18 : A2 1024 256) (a19 : A2 1024 1024) (a20 : A2 1024 256) (a21 : A1 1024) : Weights where
  xmean := vecOf a5
  wgx := vecOf a6
  bgx := vecOf a7
  Wgh := rowOf a8
  bgh := vecOf a9
  Wxz := rowOf a10
  Whz := rowOf a11
  Wmz := rowOf a12
  bmz := vecOf a13
  Wxr := rowOf a14
  Whr := rowOf a15
  Wmr := rowOf a16
  bmr := vecOf a17
  Wxh := rowOf a18
  Whh := rowOf a19
  Wmh := rowOf a20
  bmh := vecOf a21

/-- Row `b` of the five batch arrays, of any number of rows. -/
def rowAt {R : ℕ} (a0 a1 a2 : A2 R 256) (a3 : A2 R 1024) (a4 : A2 R 256) (b : Fin R) : Row where
  x := rowOf a0 b
  m := rowOf a1 b
  δ := rowOf a2 b
  h := rowOf a3 b
  xlo := rowOf a4 b

/-- The new hidden state of the whole batch. -/
def GH (W : Weights) (a0 a1 a2 : A2 8192 256) (a3 : A2 8192 1024) (a4 : A2 8192 256) : A2 8192 1024 :=
  fun j => hNew W (rowAt a0 a1 a2 a3 a4 ⟨(j 0).val, (j 0).isLt⟩) ⟨(j 1).val, (j 1).isLt⟩

/-- The new last-observed values of the whole batch. -/
def GX (a0 a1 a2 : A2 8192 256) (a3 : A2 8192 1024) (a4 : A2 8192 256) : A2 8192 256 :=
  fun j => lastObs (rowAt a0 a1 a2 a3 a4 ⟨(j 0).val, (j 0).isLt⟩) ⟨(j 1).val, (j 1).isLt⟩

theorem GH_apply (W : Weights) (a0 a1 a2 : A2 8192 256) (a3 : A2 8192 1024) (a4 : A2 8192 256) (b : Fin 8192) (n : Fin 1024) :
    GH W a0 a1 a2 a3 a4 (ValueIdx.ix2 b n) = hNew W (rowAt a0 a1 a2 a3 a4 b) n := rfl

theorem GX_apply (a0 a1 a2 : A2 8192 256) (a3 : A2 8192 1024) (a4 : A2 8192 256) (b : Fin 8192) (d : Fin 256) :
    GX a0 a1 a2 a3 a4 (ValueIdx.ix2 b d) = lastObs (rowAt a0 a1 a2 a3 a4 b) d := rfl

/-- How the kernel's eleven constant operands hold the layer's constants: the vectors as one-row matrices, the
    input and mask weights of a gate side by side, the update gate's rows stacked on the reset gate's. -/
structure Fused (W : Weights) (x5 x6 x7 : A2 1 256) (x8 : A2 1024 256) (x9 : A2 1 1024) (x10 : A2 2048 512)
    (x11 : A2 2048 1024) (x12 : A2 1 2048) (x13 : A2 1024 512) (x14 : A2 1024 1024) (x15 : A2 1 1024) : Prop where
  h5 : ∀ d : Fin 256, x5 (ValueIdx.ix2 (0 : Fin 1) d) = W.xmean d
  h6 : ∀ d : Fin 256, x6 (ValueIdx.ix2 (0 : Fin 1) d) = W.wgx d
  h7 : ∀ d : Fin 256, x7 (ValueIdx.ix2 (0 : Fin 1) d) = W.bgx d
  h8 : ∀ (n : Fin 1024) (k : Fin 256), x8 (ValueIdx.ix2 n k) = W.Wgh n k
  h9 : ∀ n : Fin 1024, x9 (ValueIdx.ix2 (0 : Fin 1) n) = W.bgh n
  h10 : ∀ (n : Fin 2048) (k : Fin 512), x10 (ValueIdx.ix2 n k)
      = stack2 (fun n => cat2 (W.Wxz n) (W.Wmz n)) (fun n => cat2 (W.Wxr n) (W.Wmr n)) n k
  h11 : ∀ (n : Fin 2048) (k : Fin 1024), x11 (ValueIdx.ix2 n k) = stack2 W.Whz W.Whr n k
  h12 : ∀ n : Fin 2048, x12 (ValueIdx.ix2 (0 : Fin 1) n) = stack2 W.bmz W.bmr n
  h13 : ∀ (n : Fin 1024) (k : Fin 512), x13 (ValueIdx.ix2 n k) = cat2 (W.Wxh n) (W.Wmh n) k
  h14 : ∀ (n : Fin 1024) (k : Fin 1024), x14 (ValueIdx.ix2 n k) = W.Whh n k
  h15 : ∀ n : Fin 1024, x15 (ValueIdx.ix2 (0 : Fin 1) n) = W.bmh n

end Cert.GruD

end
-- ==== Proof.KPay.lean ====
/-
  The kernel body's values read at one index of the block, at the extended reals.

  Each statement takes the body's earlier values as arbitrary vectors, so the lemmas compose by rewriting:
  the decays (a broadcast row times the block, the relu, the exponential of its negation; for the hidden
  decay a contraction over the 256 gap features first), the side-by-side operand of the fused products,
  the fused pre-activation of the two gates (three contractions: the side-by-side operand over 512 columns, the
  decayed hidden row over 1024, and the row's remainder after the same row is taken off it), the gates as
  logistic functions of the two halves of that pre-activation, and the final blend.
-/
import proofs.«415705_j78658031059226_3_alg».proof.Proof.Spec
import proofs.«415705_j78658031059226_3_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.GruD.Pay

open Idealize.ShloMosaic Cert.KernelIdeal Cert.KernelIdeal.Gen ValueIdx Cert.GruD

/-! ## A product of rows against rows

Every contraction of the kernel body contracts axis 1 of both operands (`M × K` by `N × K`): at the output index
`(p, n)` and the contraction position `k` the left operand is read at `(p, k)` and the right operand at `(n, k)`, so
the product into a zero accumulator is row `p` of the left operand against row `n` of the right operand. -/

section RowsByRows
variable {P K N : ℕ}

private theorem lhsT_0 (i : (⟨2, ![P, N]⟩ : Shape).Idx) (q : (DotDims.transposedRhs P K N).contr.Idx) :
    ((DotDims.transposedRhs P K N).lhsIdx i q 0).val = (i 0).val := by
  unfold DotDims.lhsIdx
  rw [dif_neg (show ¬(0 : Fin (⟨2, ![P, K]⟩ : Shape).rank) ∈ (DotDims.transposedRhs P K N).lhsBatch from List.not_mem_nil),
    dif_pos (show (0 : Fin (⟨2, ![P, K]⟩ : Shape).rank) ∈ (DotDims.transposedRhs P K N).lhsNonContracting from List.mem_singleton.mpr rfl)]
  rfl

private theorem lhsT_1 (i : (⟨2, ![P, N]⟩ : Shape).Idx) (q : (DotDims.transposedRhs P K N).contr.Idx) :
    ((DotDims.transposedRhs P K N).lhsIdx i q 1).val = (q ⟨0, Nat.one_pos⟩).val :=
  (DotDims.transposedRhs P K N).lhsIdx_val_of_single rfl i q

private theorem rhsT_0 (i : (⟨2, ![P, N]⟩ : Shape).Idx) (q : (DotDims.transposedRhs P K N).contr.Idx) :
    ((DotDims.transposedRhs P K N).rhsIdx i q 0).val = (i 1).val := by
  unfold DotDims.rhsIdx
  rw [dif_neg (show ¬(0 : Fin (⟨2, ![N, K]⟩ : Shape).rank) ∈ (DotDims.transposedRhs P K N).rhsBatch from List.not_mem_nil),
    dif_pos (show (0 : Fin (⟨2, ![N, K]⟩ : Shape).rank) ∈ (DotDims.transposedRhs P K N).rhsNonContracting from List.mem_singleton.mpr rfl)]
  rfl

private theorem rhsT_1 (i : (⟨2, ![P, N]⟩ : Shape).Idx) (q : (DotDims.transposedRhs P K N).contr.Idx) :
    ((DotDims.transposedRhs P K N).rhsIdx i q 1).val = (q ⟨0, Nat.one_pos⟩).val :=
  (DotDims.transposedRhs P K N).rhsIdx_val_of_single rfl i q

/-- The product into the zero accumulator at `(p, n)`, for any dimension numbers that are those of rows by rows. -/
private theorem matmulT_apply {φ₁ φ₂ : FTy} (D : DotDims ⟨2, ![P, K]⟩ ⟨2, ![N, K]⟩ ⟨2, ![P, N]⟩)
    (hD : D = DotDims.transposedRhs P K N) (prec : Option ContractPrecision)
    (x : FVec Ideal ⟨2, ![P, K]⟩ φ₁) (w : FVec Ideal ⟨2, ![N, K]⟩ φ₂) (p : Fin P) (n : Fin N) :
    matmul D prec x w (constant (F := Ideal) ⟨2, ![P, N]⟩ .f32 0x00000000#32) (ix2 p n)
      = dotRow (rowOf (R := P) (C := K) x p) (rowOf (R := N) (C := K) w n) := by
  subst hD
  show FloatOps.matmul (DotDims.transposedRhs P K N) prec x w (constant (F := Ideal) ⟨2, ![P, N]⟩ .f32 0x00000000#32) (ix2 p n) = _
  rw [Ideal.matmul_constant_zero_apply, ← Equiv.sum_comp (ValueIdx.contrEquiv1 (DotDims.transposedRhs P K N) K rfl rfl).symm]
  unfold dotRow rowOf
  refine Finset.sum_congr rfl fun k _ => ?_
  have hk := ValueIdx.contrEquiv1_symm_val (DotDims.transposedRhs P K N) K rfl rfl k
  have el : (DotDims.transposedRhs P K N).lhsIdx (ix2 p n) ((ValueIdx.contrEquiv1 (DotDims.transposedRhs P K N) K rfl rfl).symm k)
      = ix2 p k := funext fun a => Fin.ext (by
    match a with
    | ⟨0, _⟩ => exact lhsT_0 _ _
    | ⟨1, _⟩ => exact (lhsT_1 _ _).trans hk)
  have er : (DotDims.transposedRhs P K N).rhsIdx (ix2 p n) ((ValueIdx.contrEquiv1 (DotDims.transposedRhs P K N) K rfl rfl).symm k)
      = ix2 n k := funext fun a => Fin.ext (by
    match a with
    | ⟨0, _⟩ => exact rhsT_0 _ _
    | ⟨1, _⟩ => exact (rhsT_1 _ _).trans hk)
  rw [el, er]

end RowsByRows

/-- The input decay at a row and a feature. -/
theorem pay2_apply (v2 : FVec Ideal S512x256 .f32) (v5 v7 : FVec Ideal S1x256 .f32) (p : Fin 512) (d : Fin 256) :
    k0_pay2 (F := Ideal) v2 v5 v7 (ix2 p d)
      = decay (v2 (ix2 p d) * v5 (ix2 (0 : Fin 1) d) + v7 (ix2 (0 : Fin 1) d)) := by
  unfold k0_pay2
  rw [shapeCast_self v5, shapeCast_self v7]
  show Ideal.exp (Ideal.ofBits .f32 0x00000000#32
      - max (v2 (ix2 p d) * broadcastTo S512x256 v5 broadcasts_S1x256_S512x256 (ix2 p d)
              + broadcastTo S512x256 v7 broadcasts_S1x256_S512x256 (ix2 p d)) (Ideal.ofBits .f32 0x00000000#32)) = _
  rw [broadcastTo_1b_ab_apply v5, broadcastTo_1b_ab_apply v7, Ideal.ofBits_zero_f32, decay_eq_zero_sub]

/-- The hidden decay at a row and a hidden unit: the gaps' row against the unit's weights, plus the bias. -/
theorem pay3_apply (v2 : FVec Ideal S512x256 .f32) (v18 : FVec Ideal S1024x256 .f32) (v19 : FVec Ideal S1x1024 .f32)
    (p : Fin 512) (n : Fin 1024) :
    k0_pay3 (F := Ideal) v2 v18 v19 (ix2 p n)
      = decay (dotRow (rowOf (R := 512) (C := 256) v2 p) (rowOf (R := 1024) (C := 256) v18 n) + v19 (ix2 (0 : Fin 1) n)) := by
  unfold k0_pay3
  rw [shapeCast_self v19]
  show Ideal.exp (Ideal.ofBits .f32 0x00000000#32
      - max (matmul dot_S512x256_S1024x256_S512x1024_1_1_0_0_n_n (some .fp32) v2 v18
                (constant (F := Ideal) S512x1024 .f32 0x00000000#32) (ix2 p n)
              + broadcastTo S512x1024 v19 broadcasts_S1x1024_S512x1024 (ix2 p n)) (Ideal.ofBits .f32 0x00000000#32)) = _
  rw [matmulT_apply dot_S512x256_S1024x256_S512x1024_1_1_0_0_n_n rfl, broadcastTo_1b_ab_apply v19,
    Ideal.ofBits_zero_f32, decay_eq_zero_sub]

/-- The mean row is passed through unchanged. -/
theorem pay4_eq (v29 : FVec Ideal S1x256 .f32) : k0_pay4 (F := Ideal) v29 = v29 :=
  shapeCast_self v29 _

/-- The mask's test. -/
theorem pay5_apply (v1 : FVec Ideal S512x256 .f32) (p : Fin 512) (d : Fin 256) :
    k0_pay5 (F := Ideal) v1 (ix2 p d) = Ideal.cmp .ogt (v1 (ix2 p d)) 0 := by
  show Ideal.cmp .ogt (v1 (ix2 p d)) (Ideal.ofBits .f32 0x00000000#32) = _
  rw [Ideal.ofBits_zero_f32]

/-- The new last-observed value. -/
theorem pay6_apply (v0 v4 : FVec Ideal S512x256 .f32) (v32 : IVec S512x256 1) (p : Fin 512) (d : Fin 256) :
    k0_pay6 (F := Ideal) v0 v4 v32 (ix2 p d) = Scalar.select (v32 (ix2 p d)) (v0 (ix2 p d)) (v4 (ix2 p d)) := rfl

/-- The decayed hidden state. -/
theorem pay7_apply (v3 v28 : FVec Ideal S512x1024 .f32) (p : Fin 512) (n : Fin 1024) :
    k0_pay7 (F := Ideal) v3 v28 (ix2 p n) = v28 (ix2 p n) * v3 (ix2 p n) := rfl

/-- The imputed input as the body computes it, before it is laid beside the mask. -/
private def xhatK (v0 v1 v4 v17 : FVec Ideal S512x256 .f32) (v30 : FVec Ideal S1x256 .f32) (v32 : IVec S512x256 1) :
    FVec Ideal S512x256 .f32 :=
  addf (mulf v1 v0) (mulf (subf (broadcast S512x256 (Scalar.ofBits (F := Ideal) .f32 0x3F800000#32)) v1)
    (addf (mulf v17 (k0_pay6 (F := Ideal) v0 v4 v32))
      (mulf (subf (broadcast S512x256 (Scalar.ofBits (F := Ideal) .f32 0x3F800000#32)) v17)
        (broadcastTo S512x256 v30 broadcasts_S1x256_S512x256))))

private theorem xhatK_apply (v0 v1 v4 v17 : FVec Ideal S512x256 .f32) (v30 : FVec Ideal S1x256 .f32) (v32 : IVec S512x256 1)
    (p : Fin 512) (d : Fin 256) :
    xhatK v0 v1 v4 v17 v30 v32 (ix2 p d)
      = v1 (ix2 p d) * v0 (ix2 p d) + (1 - v1 (ix2 p d)) *
            (v17 (ix2 p d) * k0_pay6 (F := Ideal) v0 v4 v32 (ix2 p d) + (1 - v17 (ix2 p d)) * v30 (ix2 (0 : Fin 1) d)) := by
  show v1 (ix2 p d) * v0 (ix2 p d) + (Ideal.ofBits .f32 0x3F800000#32 - v1 (ix2 p d)) *
      (v17 (ix2 p d) * k0_pay6 (F := Ideal) v0 v4 v32 (ix2 p d) + (Ideal.ofBits .f32 0x3F800000#32 - v17 (ix2 p d)) *
        broadcastTo S512x256 v30 broadcasts_S1x256_S512x256 (ix2 p d)) = _
  rw [broadcastTo_1b_ab_apply v30, Ideal.ofBits_one_f32]

/-- The side-by-side operand is the concatenation, along the columns, of the imputed input and the mask. -/
private theorem pay8_eq (v0 v1 v4 v17 : FVec Ideal S512x256 .f32) (v30 : FVec Ideal S1x256 .f32) (v32 : IVec S512x256 1) :
    k0_pay8 (F := Ideal) v0 v1 v4 v17 v30 v32
      = truncf .bf16 (concatenate S512x512 1 [⟨S512x256, xhatK v0 v1 v4 v17 v30 v32⟩, ⟨S512x256, v1⟩]
          concatenates_S512x256_S512x256_S512x512_d1) bitsLt_bf16_f32 := rfl

/-- The side-by-side operand: the imputed input in the first 256 columns, the mask in the last 256. -/
theorem pay8_apply (v0 v1 v4 v17 : FVec Ideal S512x256 .f32) (v30 : FVec Ideal S1x256 .f32) (v32 : IVec S512x256 1)
    (p : Fin 512) (k : Fin 512) :
    k0_pay8 (F := Ideal) v0 v1 v4 v17 v30 v32 (ix2 p k)
      = cat2 (fun d => v1 (ix2 p d) * v0 (ix2 p d) + (1 - v1 (ix2 p d)) *
            (v17 (ix2 p d) * k0_pay6 (F := Ideal) v0 v4 v32 (ix2 p d) + (1 - v17 (ix2 p d)) * v30 (ix2 (0 : Fin 1) d)))
          (rowOf (R := 512) (C := 256) v1 p) k := by
  rw [pay8_eq]
  show concatenate S512x512 1 [⟨S512x256, xhatK v0 v1 v4 v17 v30 v32⟩, ⟨S512x256, v1⟩]
      concatenates_S512x256_S512x256_S512x512_d1 (ix2 p k) = _
  unfold cat2
  by_cases hk : k.val < 256
  · -- a column below 256 falls in the first piece, at the same column
    rw [dif_pos hk]
    refine (concatenate_pair_apply_left (1 : Fin S512x512.rank) (xhatK v0 v1 v4 v17 v30 v32) v1
      concatenates_S512x256_S512x256_S512x512_d1 (ix2 p k) rfl (ix2 p (⟨k.val, hk⟩ : Fin 256)) (fun b => ?_)).trans ?_
    · match b with
      | ⟨0, _⟩ => rfl
      | ⟨1, _⟩ => rfl
    · exact xhatK_apply v0 v1 v4 v17 v30 v32 p ⟨k.val, hk⟩
  · -- a column from 256 on falls in the second piece, 256 columns to the left
    rw [dif_neg hk]
    refine (concatenate_pair_apply_right (1 : Fin S512x512.rank) (xhatK v0 v1 v4 v17 v30 v32) v1
      concatenates_S512x256_S512x256_S512x512_d1 (ix2 p k) rfl rfl (ix2 p (⟨k.val - 256, by omega⟩ : Fin 256))
      (fun b hb => ?_) ?_).trans ?_
    · match b with
      | ⟨0, _⟩ => rfl
      | ⟨1, _⟩ => exact absurd rfl hb
    · show (k.val - 256) + 256 = k.val
      omega
    · rfl

/-- The fused pre-activation of the two gates at a row and one of the 2048 stacked units. -/
theorem pay9_apply (v0 v1 : FVec Ideal S512x256 .f32) (v3 : FVec Ideal S512x1024 .f32) (v4 v17 : FVec Ideal S512x256 .f32)
    (v28 : FVec Ideal S512x1024 .f32) (v30 : FVec Ideal S1x256 .f32) (v32 : IVec S512x256 1)
    (v48 : FVec Ideal S2048x512 .bf16) (v50 : FVec Ideal S2048x1024 .bf16) (v52 : FVec Ideal S1x2048 .f32)
    (p : Fin 512) (n : Fin 2048) :
    k0_pay9 (F := Ideal) v0 v1 v3 v4 v17 v28 v30 v32 v48 v50 v52 (ix2 p n)
      = (dotRow (rowOf (R := 512) (C := 512) (k0_pay8 (F := Ideal) v0 v1 v4 v17 v30 v32) p) (rowOf (R := 2048) (C := 512) v48 n)
          + (dotRow (rowOf (R := 512) (C := 1024) (k0_pay7 (F := Ideal) v3 v28) p) (rowOf (R := 2048) (C := 1024) v50 n)
             + dotRow (fun k => k0_pay7 (F := Ideal) v3 v28 (ix2 p k) - k0_pay7 (F := Ideal) v3 v28 (ix2 p k))
                 (rowOf (R := 2048) (C := 1024) v50 n)))
        + v52 (ix2 (0 : Fin 1) n) := by
  unfold k0_pay9
  rw [shapeCast_self v48, shapeCast_self v50, shapeCast_self v52]
  show (matmul dot_S512x512_S2048x512_S512x2048_1_1_0_0_n_n none (k0_pay8 (F := Ideal) v0 v1 v4 v17 v30 v32) v48
          (constant (F := Ideal) S512x2048 .f32 0x00000000#32) (ix2 p n)
        + (matmul dot_S512x1024_S2048x1024_S512x2048_1_1_0_0_n_n none
              (truncf .bf16 (k0_pay7 (F := Ideal) v3 v28) bitsLt_bf16_f32) v50
              (constant (F := Ideal) S512x2048 .f32 0x00000000#32) (ix2 p n)
           + matmul dot_S512x1024_S2048x1024_S512x2048_1_1_0_0_n_n none
              (truncf .bf16 (subf (k0_pay7 (F := Ideal) v3 v28) (k0_pay7 (F := Ideal) v3 v28)) bitsLt_bf16_f32) v50
              (constant (F := Ideal) S512x2048 .f32 0x00000000#32) (ix2 p n)))
      + broadcastTo S512x2048 v52 broadcasts_S1x2048_S512x2048 (ix2 p n) = _
  rw [matmulT_apply dot_S512x512_S2048x512_S512x2048_1_1_0_0_n_n rfl,
    matmulT_apply dot_S512x1024_S2048x1024_S512x2048_1_1_0_0_n_n rfl,
    matmulT_apply dot_S512x1024_S2048x1024_S512x2048_1_1_0_0_n_n rfl, broadcastTo_1b_ab_apply v52]
  -- the format changes are the identity on extended reals, and the remainder row reads entry by entry
  rfl

/-- The update gate: the logistic function of the first half of the fused pre-activation. -/
theorem pay10_apply (v0 v1 : FVec Ideal S512x256 .f32) (v3 : FVec Ideal S512x1024 .f32) (v4 v17 : FVec Ideal S512x256 .f32)
    (v28 : FVec Ideal S512x1024 .f32) (v30 : FVec Ideal S1x256 .f32) (v32 : IVec S512x256 1)
    (v48 : FVec Ideal S2048x512 .bf16) (v50 : FVec Ideal S2048x1024 .bf16) (v52 : FVec Ideal S1x2048 .f32)
    (p : Fin 512) (n : Fin 1024) :
    k0_pay10 (F := Ideal) v0 v1 v3 v4 v17 v28 v30 v32 v48 v50 v52 (ix2 p n)
      = Ideal.logistic (k0_pay9 (F := Ideal) v0 v1 v3 v4 v17 v28 v30 v32 v48 v50 v52 (ix2 p (⟨n.val, by omega⟩ : Fin 2048))) := by
  show Ideal.logistic (extractStridedSlice S512x1024 ![0, 0] (k0_pay9 (F := Ideal) v0 v1 v3 v4 v17 v28 v30 v32 v48 v50 v52)
      slices_S512x2048_o0_0_S512x1024 (ix2 p n)) = _
  exact congrArg Ideal.logistic (slice2_axis1_apply 0 _ _ p n _ (Nat.zero_add _).symm)

/-- The reset gate times the decayed hidden state: the second half of the fused pre-activation. -/
theorem pay11_apply (v0 v1 : FVec Ideal S512x256 .f32) (v3 : FVec Ideal S512x1024 .f32) (v4 v17 : FVec Ideal S512x256 .f32)
    (v28 : FVec Ideal S512x1024 .f32) (v30 : FVec Ideal S1x256 .f32) (v32 : IVec S512x256 1)
    (v48 : FVec Ideal S2048x512 .bf16) (v50 : FVec Ideal S2048x1024 .bf16) (v52 : FVec Ideal S1x2048 .f32)
    (p : Fin 512) (n : Fin 1024) :
    k0_pay11 (F := Ideal) v0 v1 v3 v4 v17 v28 v30 v32 v48 v50 v52 (ix2 p n)
      = Ideal.logistic (k0_pay9 (F := Ideal) v0 v1 v3 v4 v17 v28 v30 v32 v48 v50 v52 (ix2 p (⟨1024 + n.val, by omega⟩ : Fin 2048)))
          * k0_pay7 (F := Ideal) v3 v28 (ix2 p n) := by
  show Ideal.logistic (extractStridedSlice S512x1024 ![0, 1024] (k0_pay9 (F := Ideal) v0 v1 v3 v4 v17 v28 v30 v32 v48 v50 v52)
      slices_S512x2048_o0_1024_S512x1024 (ix2 p n)) * k0_pay7 (F := Ideal) v3 v28 (ix2 p n) = _
  exact congrArg (· * k0_pay7 (F := Ideal) v3 v28 (ix2 p n))
    (congrArg Ideal.logistic (slice2_axis1_apply 1024 _ _ p n _ rfl))

/-- The candidate's weights are passed through unchanged. -/
theorem pay12_eq (v71 : FVec Ideal S1024x512 .bf16) : k0_pay12 (F := Ideal) v71 = v71 :=
  shapeCast_self v71 _

theorem pay13_eq (v73 : FVec Ideal S1024x1024 .bf16) : k0_pay13 (F := Ideal) v73 = v73 :=
  shapeCast_self v73 _

/-- The blend: `(1 - z) · hd + z · tanh (fused candidate pre-activation)`. -/
theorem pay1_apply (v45 : FVec Ideal S512x1024 .f32) (v47 : FVec Ideal S512x512 .bf16) (v66 : FVec Ideal S512x1024 .f32)
    (v70 : FVec Ideal S512x1024 .bf16) (v72 : FVec Ideal S1024x512 .bf16) (v74 : FVec Ideal S1024x1024 .bf16)
    (v75 : FVec Ideal S1x1024 .f32) (p : Fin 512) (n : Fin 1024) :
    k0_pay1 (F := Ideal) v45 v47 v66 v70 v72 v74 v75 (ix2 p n)
      = (1 - v66 (ix2 p n)) * v45 (ix2 p n) + v66 (ix2 p n) *
          Ideal.tanh ((dotRow (rowOf (R := 512) (C := 512) v47 p) (rowOf (R := 1024) (C := 512) v72 n)
            + dotRow (rowOf (R := 512) (C := 1024) v70 p) (rowOf (R := 1024) (C := 1024) v74 n)) + v75 (ix2 (0 : Fin 1) n)) := by
  unfold k0_pay1
  rw [shapeCast_self v75]
  show (Ideal.ofBits .f32 0x3F800000#32 - v66 (ix2 p n)) * v45 (ix2 p n) + v66 (ix2 p n) *
      Ideal.tanh ((matmul dot_S512x512_S1024x512_S512x1024_1_1_0_0_n_n none v47 v72
            (constant (F := Ideal) S512x1024 .f32 0x00000000#32) (ix2 p n)
          + matmul dot_S512x1024_S1024x1024_S512x1024_1_1_0_0_n_n none v70 v74
            (constant (F := Ideal) S512x1024 .f32 0x00000000#32) (ix2 p n))
        + broadcastTo S512x1024 v75 broadcasts_S1x1024_S512x1024 (ix2 p n)) = _
  rw [matmulT_apply dot_S512x512_S1024x512_S512x1024_1_1_0_0_n_n rfl,
    matmulT_apply dot_S512x1024_S1024x1024_S512x1024_1_1_0_0_n_n rfl, broadcastTo_1b_ab_apply v75, Ideal.ofBits_one_f32]

end Cert.GruD.Pay

end
-- ==== Proof.KBlock.lean ====
/-
  One block of the kernel's two results, read at an index, is the specification's step on that row.

  The body stores two values through its whole output buffers. The new last-observed values are the select on the
  mask's test. The new hidden state is assembled from the earlier values: the decays, the imputed input laid beside
  the mask, the fused pre-activation of the two gates, and the blend. With the constant operands holding the
  layer's constants in the fused arrangement, each earlier value at an index is the specification's function of
  the row; the fused pre-activations are the gates' by the regrouping of sums, where the remainder row
  `hd - hd` vanishes because the decayed hidden state is a real number (a decay factor times a finite entry).
-/
import proofs.«415705_j78658031059226_3_alg».proof.Proof.Spec
import proofs.«415705_j78658031059226_3_alg».proof.Proof.KPay
import proofs.«415705_j78658031059226_3_alg».proof.Proof.Gen.KernelIdeal.Frame
import Idealize.ShloMosaic.Lib.Pipeline.Value
import Idealize.ShloMosaic.Lib.ValueIdx

noncomputable section

namespace Cert.GruD.Block

open Idealize.ShloMosaic Cert.KernelIdeal Cert.KernelIdeal.Gen ValueIdx Cert.GruD Cert.GruD.Pay

section
variable (x0 x1 x2 : FVec Ideal S512x256 .f32) (x3 : FVec Ideal S512x1024 .f32) (x4 : FVec Ideal S512x256 .f32)
    (x5 x6 x7 : FVec Ideal S1x256 .f32) (x8 : FVec Ideal S1024x256 .f32) (x9 : FVec Ideal S1x1024 .f32)
    (x10 : FVec Ideal S2048x512 .bf16) (x11 : FVec Ideal S2048x1024 .bf16) (x12 : FVec Ideal S1x2048 .f32)
    (x13 : FVec Ideal S1024x512 .bf16) (x14 : FVec Ideal S1024x1024 .bf16) (x15 : FVec Ideal S1x1024 .f32)
    (W : Weights) (hW : Fused W x5 x6 x7 x8 x9 x10 x11 x12 x13 x14 x15)
    (p : Fin 512)

/-- The row of the batch the block's row `p` carries. -/
abbrev row : Row := rowAt (R := 512) x0 x1 x2 x3 x4 p

include hW

theorem gx_apply (d : Fin 256) :
    k0_pay2 (F := Ideal) x2 x6 x7 (ix2 p d) = gammaX W (row x0 x1 x2 x3 x4 p) d := by
  rw [pay2_apply, hW.h6, hW.h7]; rfl

theorem gh_apply (n : Fin 1024) :
    k0_pay3 (F := Ideal) x2 x8 x9 (ix2 p n) = gammaH W (row x0 x1 x2 x3 x4 p) n := by
  rw [pay3_apply, hW.h9]
  have e : rowOf (R := 1024) (C := 256) x8 n = W.Wgh n := funext fun k => hW.h8 n k
  rw [e]; rfl

omit hW in
theorem last_apply (d : Fin 256) :
    k0_pay6 (F := Ideal) x0 x4 (k0_pay5 (F := Ideal) x1) (ix2 p d) = lastObs (row x0 x1 x2 x3 x4 p) d := by
  rw [pay6_apply, pay5_apply]; rfl

theorem hd_apply (n : Fin 1024) :
    k0_pay7 (F := Ideal) x3 (k0_pay3 (F := Ideal) x2 x8 x9) (ix2 p n) = hDec W (row x0 x1 x2 x3 x4 p) n := by
  rw [pay7_apply, gh_apply x0 x1 x2 x3 x4 x5 x6 x7 x8 x9 x10 x11 x12 x13 x14 x15 W hW p n]; rfl

theorem cat_row :
    rowOf (R := 512) (C := 512) (k0_pay8 (F := Ideal) x0 x1 x4 (k0_pay2 (F := Ideal) x2 x6 x7) (k0_pay4 (F := Ideal) x5) (k0_pay5 (F := Ideal) x1)) p
      = cat2 (xHat W (row x0 x1 x2 x3 x4 p)) (row x0 x1 x2 x3 x4 p).m := by
  funext k
  show k0_pay8 (F := Ideal) x0 x1 x4 _ _ _ (ix2 p k) = _
  rw [pay8_apply, pay4_eq]
  congr 1
  funext d
  rw [gx_apply x0 x1 x2 x3 x4 x5 x6 x7 x8 x9 x10 x11 x12 x13 x14 x15 W hW p d, last_apply x0 x1 x2 x3 x4 p d, hW.h5]
  rfl

theorem hd_row :
    rowOf (R := 512) (C := 1024) (k0_pay7 (F := Ideal) x3 (k0_pay3 (F := Ideal) x2 x8 x9)) p = hDec W (row x0 x1 x2 x3 x4 p) :=
  funext fun n => hd_apply x0 x1 x2 x3 x4 x5 x6 x7 x8 x9 x10 x11 x12 x13 x14 x15 W hW p n

end

section
variable (x0 x1 x2 : FVec Ideal S512x256 .f32) (x3 : FVec Ideal S512x1024 .f32) (x4 : FVec Ideal S512x256 .f32)
    (x5 x6 x7 : FVec Ideal S1x256 .f32) (x8 : FVec Ideal S1024x256 .f32) (x9 : FVec Ideal S1x1024 .f32)
    (x10 : FVec Ideal S2048x512 .bf16) (x11 : FVec Ideal S2048x1024 .bf16) (x12 : FVec Ideal S1x2048 .f32)
    (x13 : FVec Ideal S1024x512 .bf16) (x14 : FVec Ideal S1024x1024 .bf16) (x15 : FVec Ideal S1x1024 .f32)
    (W : Weights) (hW : Fused W x5 x6 x7 x8 x9 x10 x11 x12 x13 x14 x15)
    (hfin : ∀ (p : Fin 512) (n : Fin 1024), ∃ s : ℝ, x3 (ix2 p n) = (s : EReal))
    (p : Fin 512)

include hW hfin

/-- The decayed hidden state is finite: taking it off itself leaves zero. -/
theorem hd_sub_self (k : Fin 1024) :
    hDec W (row x0 x1 x2 x3 x4 p) k - hDec W (row x0 x1 x2 x3 x4 p) k = 0 := by
  obtain ⟨s, hs⟩ := hfin p k
  show gammaH W (row x0 x1 x2 x3 x4 p) k * x3 (ix2 p k) - gammaH W (row x0 x1 x2 x3 x4 p) k * x3 (ix2 p k) = 0
  rw [hs]
  exact decay_mul_sub_self _ s

/-- The fused pre-activation at a row and one of the 2048 stacked units, over the specification's rows. -/
theorem zr_apply (n : Fin 2048) :
    k0_pay9 (F := Ideal) x0 x1 x3 x4 (k0_pay2 (F := Ideal) x2 x6 x7) (k0_pay3 (F := Ideal) x2 x8 x9) (k0_pay4 (F := Ideal) x5) (k0_pay5 (F := Ideal) x1) x10 x11 x12 (ix2 p n)
      = (dotRow (cat2 (xHat W (row x0 x1 x2 x3 x4 p)) (row x0 x1 x2 x3 x4 p).m)
            (stack2 (fun n => cat2 (W.Wxz n) (W.Wmz n)) (fun n => cat2 (W.Wxr n) (W.Wmr n)) n)
          + (dotRow (hDec W (row x0 x1 x2 x3 x4 p)) (stack2 W.Whz W.Whr n)
             + dotRow (fun k => hDec W (row x0 x1 x2 x3 x4 p) k - hDec W (row x0 x1 x2 x3 x4 p) k) (stack2 W.Whz W.Whr n)))
        + stack2 W.bmz W.bmr n := by
  rw [pay9_apply, cat_row x0 x1 x2 x3 x4 x5 x6 x7 x8 x9 x10 x11 x12 x13 x14 x15 W hW p,
    hd_row x0 x1 x2 x3 x4 x5 x6 x7 x8 x9 x10 x11 x12 x13 x14 x15 W hW p, hW.h12]
  have e10 : rowOf (R := 2048) (C := 512) x10 n
      = stack2 (fun n => cat2 (W.Wxz n) (W.Wmz n)) (fun n => cat2 (W.Wxr n) (W.Wmr n)) n := funext fun k => hW.h10 n k
  have e11 : rowOf (R := 2048) (C := 1024) x11 n = stack2 W.Whz W.Whr n := funext fun k => hW.h11 n k
  have e7 : (fun k => k0_pay7 (F := Ideal) x3 (k0_pay3 (F := Ideal) x2 x8 x9) (ix2 p k) - k0_pay7 (F := Ideal) x3 (k0_pay3 (F := Ideal) x2 x8 x9) (ix2 p k))
      = fun k => hDec W (row x0 x1 x2 x3 x4 p) k - hDec W (row x0 x1 x2 x3 x4 p) k := funext fun k => by
    rw [hd_apply x0 x1 x2 x3 x4 x5 x6 x7 x8 x9 x10 x11 x12 x13 x14 x15 W hW p k]
  rw [e10, e11, e7]

theorem z_apply (n : Fin 1024) :
    k0_pay10 (F := Ideal) x0 x1 x3 x4 (k0_pay2 (F := Ideal) x2 x6 x7) (k0_pay3 (F := Ideal) x2 x8 x9) (k0_pay4 (F := Ideal) x5) (k0_pay5 (F := Ideal) x1) x10 x11 x12 (ix2 p n)
      = zGate W (row x0 x1 x2 x3 x4 p) n := by
  rw [pay10_apply, zr_apply x0 x1 x2 x3 x4 x5 x6 x7 x8 x9 x10 x11 x12 x13 x14 x15 W hW hfin p,
    stack2_lo, stack2_lo, stack2_lo]
  unfold zGate gatePre
  rw [fused_eq_gatePre _ _ _ (hd_sub_self x0 x1 x2 x3 x4 x5 x6 x7 x8 x9 x10 x11 x12 x13 x14 x15 W hW hfin p)]

theorem r_apply (n : Fin 1024) :
    k0_pay11 (F := Ideal) x0 x1 x3 x4 (k0_pay2 (F := Ideal) x2 x6 x7) (k0_pay3 (F := Ideal) x2 x8 x9) (k0_pay4 (F := Ideal) x5) (k0_pay5 (F := Ideal) x1) x10 x11 x12 (ix2 p n)
      = rGate W (row x0 x1 x2 x3 x4 p) n * hDec W (row x0 x1 x2 x3 x4 p) n := by
  rw [pay11_apply, zr_apply x0 x1 x2 x3 x4 x5 x6 x7 x8 x9 x10 x11 x12 x13 x14 x15 W hW hfin p,
    stack2_hi, stack2_hi, stack2_hi, hd_apply x0 x1 x2 x3 x4 x5 x6 x7 x8 x9 x10 x11 x12 x13 x14 x15 W hW p n]
  unfold rGate gatePre
  rw [fused_eq_gatePre _ _ _ (hd_sub_self x0 x1 x2 x3 x4 x5 x6 x7 x8 x9 x10 x11 x12 x13 x14 x15 W hW hfin p)]

/-- The new hidden state's block at an index. -/
theorem out16_apply (n : Fin 1024) :
    out0_16 (F := Ideal) x0 x1 x2 x3 x4 x5 x6 x7 x8 x9 x10 x11 x12 x13 x14 x15 (ix2 p n)
      = hNew W (rowAt (R := 512) x0 x1 x2 x3 x4 p) n := by
  have hz : (![0, 0] : Fin 2 → ℕ) = fun _ => 0 := funext fun a => by fin_cases a <;> rfl
  unfold out0_16
  rw [View.canon_unit_zero hz]
  simp only [View.ld_unit_zero (S := S512x256) hz,
    View.ld_unit_zero (S := S512x1024) hz,
    View.ld_unit_zero (S := S1x256) hz,
    View.ld_unit_zero (S := S1024x256) hz,
    View.ld_unit_zero (S := S1x1024) hz,
    View.ld_unit_zero (S := S2048x512) hz,
    View.ld_unit_zero (S := S2048x1024) hz,
    View.ld_unit_zero (S := S1x2048) hz,
    View.ld_unit_zero (S := S1024x512) hz,
    View.ld_unit_zero (S := S1024x1024) hz]
  rw [pay1_apply, pay12_eq, pay13_eq,
    cat_row x0 x1 x2 x3 x4 x5 x6 x7 x8 x9 x10 x11 x12 x13 x14 x15 W hW p,
    z_apply x0 x1 x2 x3 x4 x5 x6 x7 x8 x9 x10 x11 x12 x13 x14 x15 W hW hfin p n,
    hd_apply x0 x1 x2 x3 x4 x5 x6 x7 x8 x9 x10 x11 x12 x13 x14 x15 W hW p n, hW.h15]
  have e13 : rowOf (R := 1024) (C := 512) x13 n = cat2 (W.Wxh n) (W.Wmh n) := funext fun k => hW.h13 n k
  have e14 : rowOf (R := 1024) (C := 1024) x14 n = W.Whh n := funext fun k => hW.h14 n k
  have e11 : rowOf (R := 512) (C := 1024) (k0_pay11 (F := Ideal) x0 x1 x3 x4 (k0_pay2 (F := Ideal) x2 x6 x7) (k0_pay3 (F := Ideal) x2 x8 x9) (k0_pay4 (F := Ideal) x5) (k0_pay5 (F := Ideal) x1) x10 x11 x12) p
      = fun k => rGate W (row x0 x1 x2 x3 x4 p) k * hDec W (row x0 x1 x2 x3 x4 p) k := funext fun k =>
    r_apply x0 x1 x2 x3 x4 x5 x6 x7 x8 x9 x10 x11 x12 x13 x14 x15 W hW hfin p k
  rw [e13, e14, e11, htFused_eq]
  rfl

end

/-- The new last-observed values' block at an index. -/
theorem out17_apply (x0 x1 x2 : FVec Ideal S512x256 .f32) (x3 : FVec Ideal S512x1024 .f32) (x4 : FVec Ideal S512x256 .f32)
    (x5 x6 x7 : FVec Ideal S1x256 .f32) (x8 : FVec Ideal S1024x256 .f32) (x9 : FVec Ideal S1x1024 .f32)
    (x10 : FVec Ideal S2048x512 .bf16) (x11 : FVec Ideal S2048x1024 .bf16) (x12 : FVec Ideal S1x2048 .f32)
    (x13 : FVec Ideal S1024x512 .bf16) (x14 : FVec Ideal S1024x1024 .bf16) (x15 : FVec Ideal S1x1024 .f32)
    (p : Fin 512) (d : Fin 256) :
    out0_17 (F := Ideal) x0 x1 x2 x3 x4 x5 x6 x7 x8 x9 x10 x11 x12 x13 x14 x15 (ix2 p d)
      = lastObs (rowAt (R := 512) x0 x1 x2 x3 x4 p) d := by
  have hz : (![0, 0] : Fin 2 → ℕ) = fun _ => 0 := funext fun a => by fin_cases a <;> rfl
  unfold out0_17
  rw [View.canon_unit_zero hz]
  simp only [View.ld_unit_zero (S := S512x256) hz]
  exact last_apply x0 x1 x2 x3 x4 p d

end Cert.GruD.Block

end
-- ==== Proof.KHost.lean ====
/-
  What the kernel's constant operands hold when the region is entered, read at an index.

  Before the region the program reshapes the five bias and mean vectors to one-row matrices, lays each gate's
  input and mask weights side by side along the columns, stacks the update gate's rows on the reset gate's,
  and changes the float format (the identity on the extended reals). Read at an index each operand is
  therefore an entry of one of the seventeen parameter arrays, chosen by which half the index falls in.
-/
import proofs.«415705_j78658031059226_3_alg».proof.Proof.Spec
import proofs.«415705_j78658031059226_3_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

noncomputable section

namespace Cert.GruD.Host

open Idealize.ShloMosaic Idealize.ShloMosaic.TcCoe Idealize.SL.Sem Cert.KernelIdeal Cert.KernelIdeal.Gen ValueIdx Cert.GruD

variable (m : (ℓ : Loc nD τ sig) → Buf (Elt Ideal) ℓ) (c : Dev nD)

/-- The layer's constants, read off the program's parameter arrays as launched. -/
def W : Weights :=
  weightsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

/-! ## Layout operations read at an index, in the vocabulary of rows -/

/-- A vector cast to a one-row matrix, read at a column, is the vector's entry. -/
private theorem oneRow_apply {n : ℕ} (x : A1 n) (h : (⟨1, ![n]⟩ : Shape).ShapeCasts ⟨2, ![1, n]⟩) (d : Fin n) :
    shapeCast ⟨2, ![1, n]⟩ x h (ix2 (0 : Fin 1) d) = vecOf x d :=
  shapeCast_a_1a_apply x h 0 d

/-- Two matrices of 256 columns laid side by side: each row is the two rows side by side. -/
private theorem sideBySide_apply {R : ℕ} (x y : A2 R 256)
    (h : Shape.Concatenates [(⟨2, ![R, 256]⟩ : Shape), ⟨2, ![R, 256]⟩] ⟨2, ![R, 512]⟩ 1) (n : Fin R) (k : Fin 512) :
    concatenate ⟨2, ![R, 512]⟩ 1 [⟨⟨2, ![R, 256]⟩, x⟩, ⟨⟨2, ![R, 256]⟩, y⟩] h (ix2 n k) = cat2 (rowOf x n) (rowOf y n) k := by
  unfold cat2
  by_cases hk : k.val < 256
  · rw [dif_pos hk]
    exact concatenate_pair_apply_left 1 x y h (ix2 n k) rfl (ix2 n ⟨k.val, hk⟩)
      (fun b => match b with | ⟨0, _⟩ => rfl | ⟨1, _⟩ => rfl)
  · rw [dif_neg hk]
    exact concatenate_pair_apply_right 1 x y h (ix2 n k) rfl rfl (ix2 n ⟨k.val - 256, by omega⟩)
      (fun b hb => match b, hb with | ⟨0, _⟩, _ => rfl | ⟨1, _⟩, hb => absurd rfl hb)
      (by show (k.val - 256) + 256 = k.val; omega)

/-- Two matrices of 1024 rows stacked: the row is the first's below 1024 and the second's from there on. -/
private theorem stacked_apply {C : ℕ} (x y : A2 1024 C)
    (h : Shape.Concatenates [(⟨2, ![1024, C]⟩ : Shape), ⟨2, ![1024, C]⟩] ⟨2, ![2048, C]⟩ 0) (n : Fin 2048) (k : Fin C) :
    concatenate ⟨2, ![2048, C]⟩ 0 [⟨⟨2, ![1024, C]⟩, x⟩, ⟨⟨2, ![1024, C]⟩, y⟩] h (ix2 n k) = stack2 (rowOf x) (rowOf y) n k := by
  unfold stack2
  by_cases hn : n.val < 1024
  · rw [dif_pos hn]
    exact concatenate_pair_apply_left 0 x y h (ix2 n k) rfl (ix2 ⟨n.val, hn⟩ k)
      (fun b => match b with | ⟨0, _⟩ => rfl | ⟨1, _⟩ => rfl)
  · rw [dif_neg hn]
    exact concatenate_pair_apply_right 0 x y h (ix2 n k) rfl rfl (ix2 ⟨n.val - 1024, by omega⟩ k)
      (fun b hb => match b, hb with | ⟨0, _⟩, hb => absurd rfl hb | ⟨1, _⟩, _ => rfl)
      (by show (n.val - 1024) + 1024 = n.val; omega)

/-- Two vectors of 1024 entries laid end to end. -/
private theorem endToEnd_apply (x y : A1 1024)
    (h : Shape.Concatenates [(⟨1, ![1024]⟩ : Shape), ⟨1, ![1024]⟩] ⟨1, ![2048]⟩ 0) (n : Fin 2048) :
    concatenate ⟨1, ![2048]⟩ 0 [⟨⟨1, ![1024]⟩, x⟩, ⟨⟨1, ![1024]⟩, y⟩] h (ix1 n) = stack2 (vecOf x) (vecOf y) n := by
  unfold stack2
  by_cases hn : n.val < 1024
  · rw [dif_pos hn]
    exact concatenate_pair_apply_left 0 x y h (ix1 n) rfl (ix1 ⟨n.val, hn⟩)
      (fun b => match b with | ⟨0, _⟩ => rfl)
  · rw [dif_neg hn]
    exact concatenate_pair_apply_right 0 x y h (ix1 n) rfl rfl (ix1 ⟨n.val - 1024, by omega⟩)
      (fun b hb => match b, hb with | ⟨0, _⟩, hb => absurd rfl hb)
      (by show (n.val - 1024) + 1024 = n.val; omega)

/-! ## The launched parameter arrays, typed as arrays of extended reals -/

/-- A launched vector of 256 entries. -/
private abbrev v256 (b : A1 256) : A1 256 := b
/-- A launched vector of 1024 entries. -/
private abbrev v1024 (b : A1 1024) : A1 1024 := b
/-- A launched matrix of 1024 rows and 256 columns. -/
private abbrev m256 (b : A2 1024 256) : A2 1024 256 := b
/-- A launched matrix of 1024 rows and 1024 columns. -/
private abbrev m1024 (b : A2 1024 1024) : A2 1024 1024 := b

/-! ## Each operand as the operations' term of the launched arrays -/

private theorem e0 : @Eq (A2 1 256) (V m c main_v0) (shapeCast S1x256 (v256 (m ((c : Thread nD τ).loc main_arg5))) shapeCasts_S256_S1x256) := by
  dsimp only [Gen.V, Gen.hostOps0]; after_results; rfl

private theorem e1 : @Eq (A2 1 256) (V m c main_v1) (shapeCast S1x256 (v256 (m ((c : Thread nD τ).loc main_arg6))) shapeCasts_S256_S1x256) := by
  dsimp only [Gen.V, Gen.hostOps0]; after_results; rfl

private theorem e2 : @Eq (A2 1 256) (V m c main_v2) (shapeCast S1x256 (v256 (m ((c : Thread nD τ).loc main_arg7))) shapeCasts_S256_S1x256) := by
  dsimp only [Gen.V, Gen.hostOps0]; after_results; rfl

private theorem e3 : @Eq (A2 1 1024) (V m c main_v3) (shapeCast S1x1024 (v1024 (m ((c : Thread nD τ).loc main_arg9))) shapeCasts_S1024_S1x1024) := by
  dsimp only [Gen.V, Gen.hostOps0]; after_results; rfl

private theorem e7 : @Eq (A2 2048 512) (V m c main_v7)
    (concatenate S2048x512 0
      [⟨S1024x512, concatenate S1024x512 1 [⟨S1024x256, m256 (m ((c : Thread nD τ).loc main_arg10))⟩, ⟨S1024x256, m256 (m ((c : Thread nD τ).loc main_arg12))⟩] concatenates_S1024x256_S1024x256_S1024x512_d1⟩,
       ⟨S1024x512, concatenate S1024x512 1 [⟨S1024x256, m256 (m ((c : Thread nD τ).loc main_arg14))⟩, ⟨S1024x256, m256 (m ((c : Thread nD τ).loc main_arg16))⟩] concatenates_S1024x256_S1024x256_S1024x512_d1⟩]
      concatenates_S1024x512_S1024x512_S2048x512_d0) := by
  dsimp only [Gen.V, Gen.hostOps0]; after_results; rfl

private theorem e9 : @Eq (A2 2048 1024) (V m c main_v9)
    (concatenate S2048x1024 0 [⟨S1024x1024, m1024 (m ((c : Thread nD τ).loc main_arg11))⟩, ⟨S1024x1024, m1024 (m ((c : Thread nD τ).loc main_arg15))⟩]
      concatenates_S1024x1024_S1024x1024_S2048x1024_d0) := by
  dsimp only [Gen.V, Gen.hostOps0]; after_results; rfl

private theorem e11 : @Eq (A2 1 2048) (V m c main_v11)
    (shapeCast S1x2048 (concatenate S2048 0 [⟨S1024, v1024 (m ((c : Thread nD τ).loc main_arg13))⟩, ⟨S1024, v1024 (m ((c : Thread nD τ).loc main_arg17))⟩] concatenates_S1024_S1024_S2048_d0)
      shapeCasts_S2048_S1x2048) := by
  dsimp only [Gen.V, Gen.hostOps0]; after_results; rfl

private theorem e13 : @Eq (A2 1024 512) (V m c main_v13)
    (concatenate S1024x512 1 [⟨S1024x256, m256 (m ((c : Thread nD τ).loc main_arg18))⟩, ⟨S1024x256, m256 (m ((c : Thread nD τ).loc main_arg20))⟩] concatenates_S1024x256_S1024x256_S1024x512_d1) := by
  dsimp only [Gen.V, Gen.hostOps0]; after_results; rfl

private theorem e14 : @Eq (A2 1024 1024) (V m c main_v14) (m1024 (m ((c : Thread nD τ).loc main_arg19))) := by
  dsimp only [Gen.V, Gen.hostOps0]; after_results; rfl

private theorem e15 : @Eq (A2 1 1024) (V m c main_v15) (shapeCast S1x1024 (v1024 (m ((c : Thread nD τ).loc main_arg21))) shapeCasts_S1024_S1x1024) := by
  dsimp only [Gen.V, Gen.hostOps0]; after_results; rfl

private theorem e8 : @Eq (A2 1024 256) (V m c main_arg8) (m256 (m ((c : Thread nD τ).loc main_arg8))) := V_main_arg8 m c

/-- The rows of two matrices laid side by side are the rows laid side by side. -/
private theorem rowOf_sideBySide {R : ℕ} (x y : A2 R 256)
    (h : Shape.Concatenates [(⟨2, ![R, 256]⟩ : Shape), ⟨2, ![R, 256]⟩] ⟨2, ![R, 512]⟩ 1) :
    rowOf (concatenate ⟨2, ![R, 512]⟩ 1 [⟨⟨2, ![R, 256]⟩, x⟩, ⟨⟨2, ![R, 256]⟩, y⟩] h) = fun n => cat2 (rowOf x n) (rowOf y n) :=
  funext fun n => funext fun k => sideBySide_apply x y h n k

/-! ## The eleven operands at an index -/

private theorem f5 (d : Fin 256) : (V m c main_v0 : A2 1 256) (ix2 (0 : Fin 1) d) = (W m c).xmean d :=
  (congrFun (e0 m c) _).trans (oneRow_apply _ _ d)

private theorem f6 (d : Fin 256) : (V m c main_v1 : A2 1 256) (ix2 (0 : Fin 1) d) = (W m c).wgx d :=
  (congrFun (e1 m c) _).trans (oneRow_apply _ _ d)

private theorem f7 (d : Fin 256) : (V m c main_v2 : A2 1 256) (ix2 (0 : Fin 1) d) = (W m c).bgx d :=
  (congrFun (e2 m c) _).trans (oneRow_apply _ _ d)

private theorem f8 (n : Fin 1024) (k : Fin 256) : (V m c main_arg8 : A2 1024 256) (ix2 n k) = (W m c).Wgh n k :=
  congrFun (e8 m c) _

private theorem f9 (n : Fin 1024) : (V m c main_v3 : A2 1 1024) (ix2 (0 : Fin 1) n) = (W m c).bgh n :=
  (congrFun (e3 m c) _).trans (oneRow_apply _ _ n)

private theorem f10 (n : Fin 2048) (k : Fin 512) : (V m c main_v7 : A2 2048 512) (ix2 n k)
    = stack2 (fun n => cat2 ((W m c).Wxz n) ((W m c).Wmz n)) (fun n => cat2 ((W m c).Wxr n) ((W m c).Wmr n)) n k := by
  refine (congrFun (e7 m c) _).trans ((stacked_apply _ _ _ n k).trans ?_)
  exact congrArg₂ (fun A B : Fin 1024 → Fin 512 → EReal => stack2 A B n k) (rowOf_sideBySide _ _ _) (rowOf_sideBySide _ _ _)

private theorem f11 (n : Fin 2048) (k : Fin 1024) : (V m c main_v9 : A2 2048 1024) (ix2 n k)
    = stack2 (W m c).Whz (W m c).Whr n k :=
  (congrFun (e9 m c) _).trans (stacked_apply _ _ _ n k)

private theorem f12 (n : Fin 2048) : (V m c main_v11 : A2 1 2048) (ix2 (0 : Fin 1) n) = stack2 (W m c).bmz (W m c).bmr n :=
  (congrFun (e11 m c) _).trans ((oneRow_apply _ _ n).trans (endToEnd_apply _ _ _ n))

private theorem f13 (n : Fin 1024) (k : Fin 512) : (V m c main_v13 : A2 1024 512) (ix2 n k)
    = cat2 ((W m c).Wxh n) ((W m c).Wmh n) k :=
  (congrFun (e13 m c) _).trans (sideBySide_apply _ _ _ n k)

private theorem f14 (n : Fin 1024) (k : Fin 1024) : (V m c main_v14 : A2 1024 1024) (ix2 n k) = (W m c).Whh n k :=
  congrFun (e14 m c) _

private theorem f15 (n : Fin 1024) : (V m c main_v15 : A2 1 1024) (ix2 (0 : Fin 1) n) = (W m c).bmh n :=
  (congrFun (e15 m c) _).trans (oneRow_apply _ _ n)

/-- The eleven constant operands of the region hold the layer's constants in the fused arrangement. -/
theorem fused_V : Fused (W m c) (V m c main_v0) (V m c main_v1) (V m c main_v2) (V m c main_arg8) (V m c main_v3)
    (V m c main_v7) (V m c main_v9) (V m c main_v11) (V m c main_v13) (V m c main_v14) (V m c main_v15) :=
  ⟨f5 m c, f6 m c, f7 m c, f8 m c, f9 m c, f10 m c, f11 m c, f12 m c, f13 m c, f14 m c, f15 m c⟩

end Cert.GruD.Host

end
-- ==== Proof.Finite.lean ====
/-
  The hidden state is finite under the precondition.

  The precondition is the conjunction, argument by argument, of "every entry's absolute value is below +∞".
  Its fourth conjunct says so of the hidden state, and an extended real whose absolute value is below +∞ is a
  real number.
-/
import proofs.«415705_j78658031059226_3_alg».proof.Proof.Spec
import proofs.«415705_j78658031059226_3_alg».proof.Defs
import Idealize.ShloMosaic.Lib.ReduceAll
import Idealize.ShloMosaic.Lib.ValueIdx
import Idealize.ShloMosaic.PureOps.Ideal.Laws

noncomputable section

namespace Cert.GruD.Finite

open Idealize.ShloMosaic Idealize.ShloMosaic.TcCoe Idealize.SL.Sem Cert.GruD

open Cert.Pre_finite_inputs in
/-- A conjunction of two flags that holds has its left flag set. -/
private theorem and_left {a b : IVec S_ 1} (h : andi a b ValueIdx.ix0 = 1#1) : a ValueIdx.ix0 = 1#1 :=
  (IntOp.andi_eq_one.1 h).1

open Cert.Pre_finite_inputs in
/-- A conjunction of two flags that holds has its right flag set. -/
private theorem and_right {a b : IVec S_ 1} (h : andi a b ValueIdx.ix0 = 1#1) : b ValueIdx.ix0 = 1#1 :=
  (IntOp.andi_eq_one.1 h).2

/-- The scalar shape has one index. -/
private instance : Subsingleton Cert.Pre_finite_inputs.S_.Idx := ⟨fun a b => funext fun d => d.elim0⟩

/-- The f32 pattern of +∞ is the top of the extended reals. -/
private theorem ofBits_inf : Ideal.ofBits .f32 0x7F800000#32 = (⊤ : EReal) := by
  simp [Ideal.ofBits, Ideal.ieee]

/-- An extended real whose absolute value is below +∞ is a real number. -/
private theorem real_of_abs_lt_top (x : EReal)
    (h : FloatOps.cmpf (F := Ideal) (φ := .f32) .olt (FloatOps.hostAbsf (F := Ideal) (φ := .f32) x) (Ideal.ofBits .f32 0x7F800000#32) = 1#1) :
    ∃ s : ℝ, x = (s : EReal) := by
  rw [ofBits_inf] at h
  induction x using EReal.rec with
  | bot =>
    -- |⊥| is ⊤, which is not below ⊤
    have h' : Ideal.cmp .olt (max (⊥ : EReal) (-⊥)) ⊤ = 1#1 := h
    simp [Ideal.cmp] at h'
  | coe r => exact ⟨r, rfl⟩
  | top =>
    -- |⊤| is ⊤, which is not below ⊤
    have h' : Ideal.cmp .olt (max (⊤ : EReal) (-⊤)) ⊤ = 1#1 := h
    simp [Ideal.cmp] at h'

/-- Every entry of the hidden state as launched is a real number. -/
theorem h_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.KernelIdeal.S8192x1024.Idx) :
    ∃ s : ℝ, m ((c.tc : Thread Cert.KernelIdeal.nD Cert.KernelIdeal.τ).loc Cert.KernelIdeal.main_arg3) j = (s : EReal) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  iterate 18 replace h := and_left h
  replace h := and_right h
  -- the fourth conjunct: every entry of the hidden state has absolute value below +∞
  exact real_of_abs_lt_top _ (Host.reduce_andi_all _ _ _ _ _ h j)

end Cert.GruD.Finite

end
-- ==== Proof.KFinal.lean ====
/-
  From blocks to arrays: the kernel's two result arrays after the run are the specification's whole-batch functions.

  The grid has sixteen points; point `t` works on rows `512 t … 512 t + 511` of the five batch arrays and of the
  two results, and on the whole of each constant operand. So a block's row `p` is row `512 t + p` of the batch,
  what point `t` writes back is block `t` of the specification's function, and the sixteen blocks tile the
  results, row `r` lying in the block of point `r / 512`.
-/
import proofs.«415705_j78658031059226_3_alg».proof.Proof.Spec
import proofs.«415705_j78658031059226_3_alg».proof.Proof.KBlock
import proofs.«415705_j78658031059226_3_alg».proof.Proof.KHost
import proofs.«415705_j78658031059226_3_alg».proof.Proof.Finite
import proofs.«415705_j78658031059226_3_alg».proof.Proof.Gen.KernelIdeal.Value
import Idealize.ShloMosaic.Lib.Pipeline.Value
import Idealize.ShloMosaic.Lib.ValueIdx

noncomputable section

set_option maxRecDepth 16384

namespace Cert.GruD.Final

open Idealize.ShloMosaic Idealize.ShloMosaic.TcCoe Idealize.SL.Sem Cert.KernelIdeal Cert.KernelIdeal.Gen ValueIdx Cert.GruD
open Idealize.ShloMosaic.Pipeline (Dat)

variable (m : (ℓ : Loc nD τ sig) → Buf (Elt Ideal) ℓ) (ρ : Dev nD → PrngReg)

/-- Argument 0 as launched. -/
abbrev a0 (c : Dev nD) : A2 8192 256 := m ((c : Thread nD τ).loc main_arg0)
/-- Argument 1 as launched. -/
abbrev a1 (c : Dev nD) : A2 8192 256 := m ((c : Thread nD τ).loc main_arg1)
/-- Argument 2 as launched. -/
abbrev a2 (c : Dev nD) : A2 8192 256 := m ((c : Thread nD τ).loc main_arg2)
/-- Argument 3 as launched. -/
abbrev a3 (c : Dev nD) : A2 8192 1024 := m ((c : Thread nD τ).loc main_arg3)
/-- Argument 4 as launched. -/
abbrev a4 (c : Dev nD) : A2 8192 256 := m ((c : Thread nD τ).loc main_arg4)

/-- The printed index maps over the sixteen grid points: the batch windows and the two results move down one
    block of rows per point; the constant operands stay. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_16.index t (0 : Fin 2) = t.val
    ∧ win0_16.index t (1 : Fin 2) = 0
    ∧ win0_17.index t (0 : Fin 2) = t.val
    ∧ win0_17.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0 :=
  (by decide +kernel : ∀ t : Fin grid0.N, _)

/-! ## A block read at an index -/

theorem blk_row0 (c : Dev nD) (t : Fin cfg0.N) (p : Fin 512) (d : Fin 256) :
    iblk m c 0 t (ix2 p d) = a0 m c (ix2 (⟨512 * t.val + p.val, by have ht16 : t.val < 16 := t.isLt; have := p.isLt; omega⟩ : Fin 8192) d) := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_arg0 (((cfg0.win 0).blk t).view.emb (ix2 p d)) = _
  rw [V_main_arg0]
  refine congrArg (m ((c : Thread nD τ).loc main_arg0)) ?_
  funext a; apply Fin.ext
  match a with
  | ⟨0, _⟩ => show win0_0.index t (0 : Fin 2) * 512 + 1 * p.val = 512 * t.val + p.val; omega
  | ⟨1, _⟩ => show win0_0.index t (1 : Fin 2) * 256 + 1 * d.val = d.val; omega

theorem blk_row1 (c : Dev nD) (t : Fin cfg0.N) (p : Fin 512) (d : Fin 256) :
    iblk m c 1 t (ix2 p d) = a1 m c (ix2 (⟨512 * t.val + p.val, by have ht16 : t.val < 16 := t.isLt; have := p.isLt; omega⟩ : Fin 8192) d) := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_arg1 (((cfg0.win 1).blk t).view.emb (ix2 p d)) = _
  rw [V_main_arg1]
  refine congrArg (m ((c : Thread nD τ).loc main_arg1)) ?_
  funext a; apply Fin.ext
  match a with
  | ⟨0, _⟩ => show win0_1.index t (0 : Fin 2) * 512 + 1 * p.val = 512 * t.val + p.val; omega
  | ⟨1, _⟩ => show win0_1.index t (1 : Fin 2) * 256 + 1 * d.val = d.val; omega

theorem blk_row2 (c : Dev nD) (t : Fin cfg0.N) (p : Fin 512) (d : Fin 256) :
    iblk m c 2 t (ix2 p d) = a2 m c (ix2 (⟨512 * t.val + p.val, by have ht16 : t.val < 16 := t.isLt; have := p.isLt; omega⟩ : Fin 8192) d) := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_arg2 (((cfg0.win 2).blk t).view.emb (ix2 p d)) = _
  rw [V_main_arg2]
  refine congrArg (m ((c : Thread nD τ).loc main_arg2)) ?_
  funext a; apply Fin.ext
  match a with
  | ⟨0, _⟩ => show win0_2.index t (0 : Fin 2) * 512 + 1 * p.val = 512 * t.val + p.val; omega
  | ⟨1, _⟩ => show win0_2.index t (1 : Fin 2) * 256 + 1 * d.val = d.val; omega

theorem blk_row3 (c : Dev nD) (t : Fin cfg0.N) (p : Fin 512) (d : Fin 1024) :
    iblk m c 3 t (ix2 p d) = a3 m c (ix2 (⟨512 * t.val + p.val, by have ht16 : t.val < 16 := t.isLt; have := p.isLt; omega⟩ : Fin 8192) d) := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_arg3 (((cfg0.win 3).blk t).view.emb (ix2 p d)) = _
  rw [V_main_arg3]
  refine congrArg (m ((c : Thread nD τ).loc main_arg3)) ?_
  funext a; apply Fin.ext
  match a with
  | ⟨0, _⟩ => show win0_3.index t (0 : Fin 2) * 512 + 1 * p.val = 512 * t.val + p.val; omega
  | ⟨1, _⟩ => show win0_3.index t (1 : Fin 2) * 1024 + 1 * d.val = d.val; omega

theorem blk_row4 (c : Dev nD) (t : Fin cfg0.N) (p : Fin 512) (d : Fin 256) :
    iblk m c 4 t (ix2 p d) = a4 m c (ix2 (⟨512 * t.val + p.val, by have ht16 : t.val < 16 := t.isLt; have := p.isLt; omega⟩ : Fin 8192) d) := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_arg4 (((cfg0.win 4).blk t).view.emb (ix2 p d)) = _
  rw [V_main_arg4]
  refine congrArg (m ((c : Thread nD τ).loc main_arg4)) ?_
  funext a; apply Fin.ext
  match a with
  | ⟨0, _⟩ => show win0_4.index t (0 : Fin 2) * 512 + 1 * p.val = 512 * t.val + p.val; omega
  | ⟨1, _⟩ => show win0_4.index t (1 : Fin 2) * 256 + 1 * d.val = d.val; omega

theorem blk_const5 (c : Dev nD) (t : Fin cfg0.N) (y : S1x256.Idx) : iblk m c 5 t y = V m c main_v0 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v0 (((cfg0.win 5).blk t).view.emb y) = _
  refine congrArg (V m c main_v0) ?_
  funext a; apply Fin.ext
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem blk_const6 (c : Dev nD) (t : Fin cfg0.N) (y : S1x256.Idx) : iblk m c 6 t y = V m c main_v1 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v1 (((cfg0.win 6).blk t).view.emb y) = _
  refine congrArg (V m c main_v1) ?_
  funext a; apply Fin.ext
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem blk_const7 (c : Dev nD) (t : Fin cfg0.N) (y : S1x256.Idx) : iblk m c 7 t y = V m c main_v2 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v2 (((cfg0.win 7).blk t).view.emb y) = _
  refine congrArg (V m c main_v2) ?_
  funext a; apply Fin.ext
  match a with
  | ⟨0, _⟩ => show win0_7.index t (0 : Fin 2) * 1 + 1 * (y 0).val = (y 0).val; omega
  | ⟨1, _⟩ => show win0_7.index t (1 : Fin 2) * 256 + 1 * (y 1).val = (y 1).val; omega

theorem blk_const8 (c : Dev nD) (t : Fin cfg0.N) (y : S1024x256.Idx) : iblk m c 8 t y = V m c main_arg8 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_arg8 (((cfg0.win 8).blk t).view.emb y) = _
  refine congrArg (V m c main_arg8) ?_
  funext a; apply Fin.ext
  match a with
  | ⟨0, _⟩ => show win0_8.index t (0 : Fin 2) * 1024 + 1 * (y 0).val = (y 0).val; omega
  | ⟨1, _⟩ => show win0_8.index t (1 : Fin 2) * 256 + 1 * (y 1).val = (y 1).val; omega

theorem blk_const9 (c : Dev nD) (t : Fin cfg0.N) (y : S1x1024.Idx) : iblk m c 9 t y = V m c main_v3 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v3 (((cfg0.win 9).blk t).view.emb y) = _
  refine congrArg (V m c main_v3) ?_
  funext a; apply Fin.ext
  match a with
  | ⟨0, _⟩ => show win0_9.index t (0 : Fin 2) * 1 + 1 * (y 0).val = (y 0).val; omega
  | ⟨1, _⟩ => show win0_9.index t (1 : Fin 2) * 1024 + 1 * (y 1).val = (y 1).val; omega

theorem blk_const10 (c : Dev nD) (t : Fin cfg0.N) (y : S2048x512.Idx) : iblk m c 10 t y = V m c main_v7 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v7 (((cfg0.win 10).blk t).view.emb y) = _
  refine congrArg (V m c main_v7) ?_
  funext a; apply Fin.ext
  match a with
  | ⟨0, _⟩ => show win0_10.index t (0 : Fin 2) * 2048 + 1 * (y 0).val = (y 0).val; omega
  | ⟨1, _⟩ => show win0_10.index t (1 : Fin 2) * 512 + 1 * (y 1).val = (y 1).val; omega

theorem blk_const11 (c : Dev nD) (t : Fin cfg0.N) (y : S2048x1024.Idx) : iblk m c 11 t y = V m c main_v9 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v9 (((cfg0.win 11).blk t).view.emb y) = _
  refine congrArg (V m c main_v9) ?_
  funext a; apply Fin.ext
  match a with
  | ⟨0, _⟩ => show win0_11.index t (0 : Fin 2) * 2048 + 1 * (y 0).val = (y 0).val; omega
  | ⟨1, _⟩ => show win0_11.index t (1 : Fin 2) * 1024 + 1 * (y 1).val = (y 1).val; omega

theorem blk_const12 (c : Dev nD) (t : Fin cfg0.N) (y : S1x2048.Idx) : iblk m c 12 t y = V m c main_v11 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v11 (((cfg0.win 12).blk t).view.emb y) = _
  refine congrArg (V m c main_v11) ?_
  funext a; apply Fin.ext
  match a with
  | ⟨0, _⟩ => show win0_12.index t (0 : Fin 2) * 1 + 1 * (y 0).val = (y 0).val; omega
  | ⟨1, _⟩ => show win0_12.index t (1 : Fin 2) * 2048 + 1 * (y 1).val = (y 1).val; omega

theorem blk_const13 (c : Dev nD) (t : Fin cfg0.N) (y : S1024x512.Idx) : iblk m c 13 t y = V m c main_v13 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v13 (((cfg0.win 13).blk t).view.emb y) = _
  refine congrArg (V m c main_v13) ?_
  funext a; apply Fin.ext
  match a with
  | ⟨0, _⟩ => show win0_13.index t (0 : Fin 2) * 1024 + 1 * (y 0).val = (y 0).val; omega
  | ⟨1, _⟩ => show win0_13.index t (1 : Fin 2) * 512 + 1 * (y 1).val = (y 1).val; omega

theorem blk_const14 (c : Dev nD) (t : Fin cfg0.N) (y : S1024x1024.Idx) : iblk m c 14 t y = V m c main_v14 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v14 (((cfg0.win 14).blk t).view.emb y) = _
  refine congrArg (V m c main_v14) ?_
  funext a; apply Fin.ext
  match a with
  | ⟨0, _⟩ => show win0_14.index t (0 : Fin 2) * 1024 + 1 * (y 0).val = (y 0).val; omega
  | ⟨1, _⟩ => show win0_14.index t (1 : Fin 2) * 1024 + 1 * (y 1).val = (y 1).val; omega

theorem blk_const15 (c : Dev nD) (t : Fin cfg0.N) (y : S1x1024.Idx) : iblk m c 15 t y = V m c main_v15 y := by
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  show V m c main_v15 (((cfg0.win 15).blk t).view.emb y) = _
  refine congrArg (V m c main_v15) ?_
  funext a; apply Fin.ext
  match a with
  | ⟨0, _⟩ => show win0_15.index t (0 : Fin 2) * 1 + 1 * (y 0).val = (y 0).val; omega
  | ⟨1, _⟩ => show win0_15.index t (1 : Fin 2) * 1024 + 1 * (y 1).val = (y 1).val; omega

/-- The constant operands' blocks hold the layer's constants in the fused arrangement, at every point. -/
theorem fused_blk (c : Dev nD) (t : Fin cfg0.N) :
    Fused (Host.W m c) (iblk m c 5 t) (iblk m c 6 t) (iblk m c 7 t) (iblk m c 8 t) (iblk m c 9 t) (iblk m c 10 t) (iblk m c 11 t) (iblk m c 12 t) (iblk m c 13 t) (iblk m c 14 t) (iblk m c 15 t) where
    h5 := fun d => (blk_const5 m c t (ix2 (0 : Fin 1) d)).trans ((Host.fused_V m c).h5 d)
    h6 := fun d => (blk_const6 m c t (ix2 (0 : Fin 1) d)).trans ((Host.fused_V m c).h6 d)
    h7 := fun d => (blk_const7 m c t (ix2 (0 : Fin 1) d)).trans ((Host.fused_V m c).h7 d)
    h8 := fun n k => (blk_const8 m c t (ix2 n k)).trans ((Host.fused_V m c).h8 n k)
    h9 := fun n => (blk_const9 m c t (ix2 (0 : Fin 1) n)).trans ((Host.fused_V m c).h9 n)
    h10 := fun n k => (blk_const10 m c t (ix2 n k)).trans ((Host.fused_V m c).h10 n k)
    h11 := fun n k => (blk_const11 m c t (ix2 n k)).trans ((Host.fused_V m c).h11 n k)
    h12 := fun n => (blk_const12 m c t (ix2 (0 : Fin 1) n)).trans ((Host.fused_V m c).h12 n)
    h13 := fun n k => (blk_const13 m c t (ix2 n k)).trans ((Host.fused_V m c).h13 n k)
    h14 := fun n k => (blk_const14 m c t (ix2 n k)).trans ((Host.fused_V m c).h14 n k)
    h15 := fun n => (blk_const15 m c t (ix2 (0 : Fin 1) n)).trans ((Host.fused_V m c).h15 n)

/-- Row `p` of point `t`'s blocks is row `512 t + p` of the batch. -/
theorem row_blk (c : Dev nD) (t : Fin cfg0.N) (p : Fin 512) :
    rowAt (R := 512) (iblk m c 0 t) (iblk m c 1 t) (iblk m c 2 t) (iblk m c 3 t) (iblk m c 4 t) p
      = rowAt (R := 8192) (a0 m c) (a1 m c) (a2 m c) (a3 m c) (a4 m c) (⟨512 * t.val + p.val, by have ht16 : t.val < 16 := t.isLt; have := p.isLt; omega⟩ : Fin 8192) := by
  unfold rowAt rowOf
  congr 1
  · exact funext fun d => blk_row0 m c t p d
  · exact funext fun d => blk_row1 m c t p d
  · exact funext fun d => blk_row2 m c t p d
  · exact funext fun d => blk_row3 m c t p d
  · exact funext fun d => blk_row4 m c t p d

/-! ## What a point writes back -/

section
variable [Cert.Pre_finite_inputs.Facts] (hpre : Cert.Pre_KernelIdeal m)
include hpre

theorem hfin_blk (c : Dev nD) (t : Fin cfg0.N) (p : Fin 512) (n : Fin 1024) :
    ∃ s : ℝ, iblk m c 3 t (ix2 p n) = (s : EReal) := by
  rw [blk_row3]
  exact Finite.h_real m hpre c _

/-- Point `t` writes back block `t` of the new hidden state. -/
theorem flushed16_eq (c : Dev nD) (t : Fin cfg0.N) :
    (dats m 0 c).flushed 16 t
      = ((cfg0.win 16).blk t).view.read (Elt Ideal) (GH (Host.W m c) (a0 m c) (a1 m c) (a2 m c) (a3 m c) (a4 m c)) := by
  rw [Cert.KernelIdeal.Value.flushed16]
  obtain ⟨r16a, r16b⟩ : win0_16.index t (0 : Fin 2) = t.val ∧ win0_16.index t (1 : Fin 2) = 0 := by
    obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
    exact ⟨r16a, r16b⟩
  funext j
  have hj0 : (j 0).val < 512 := (j 0).isLt
  have hj1 : (j 1).val < 1024 := (j 1).isLt
  have hj : j = ix2 (⟨(j 0).val, hj0⟩ : Fin 512) (⟨(j 1).val, hj1⟩ : Fin 1024) := by
    funext a; match a with | ⟨0, _⟩ => rfl | ⟨1, _⟩ => rfl
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j
      = GH (Host.W m c) (a0 m c) (a1 m c) (a2 m c) (a3 m c) (a4 m c) (((cfg0.win 16).blk t).view.emb j)
  have he : ((cfg0.win 16).blk t).view.emb j
      = ix2 (⟨512 * t.val + (j 0).val, by have ht16 : t.val < 16 := t.isLt; omega⟩ : Fin 8192) (⟨(j 1).val, hj1⟩ : Fin 1024) := by
    funext a; apply Fin.ext
    match a with
    | ⟨0, _⟩ => show win0_16.index t (0 : Fin 2) * 512 + 1 * (j 0).val = 512 * t.val + (j 0).val; omega
    | ⟨1, _⟩ => show win0_16.index t (1 : Fin 2) * 1024 + 1 * (j 1).val = (j 1).val; omega
  rw [he, GH_apply, ← row_blk m c t ⟨(j 0).val, hj0⟩]
  refine Eq.trans (congrArg _ hj) ?_
  exact Block.out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (Host.W m c) (fused_blk m c t) (hfin_blk m hpre c t) ⟨(j 0).val, hj0⟩ ⟨(j 1).val, hj1⟩

end

/-- Point `t` writes back block `t` of the new last-observed values. -/
theorem flushed17_eq (c : Dev nD) (t : Fin cfg0.N) :
    (dats m 0 c).flushed 17 t
      = ((cfg0.win 17).blk t).view.read (Elt Ideal) (GX (a0 m c) (a1 m c) (a2 m c) (a3 m c) (a4 m c)) := by
  rw [Cert.KernelIdeal.Value.flushed17]
  obtain ⟨r17a, r17b⟩ : win0_17.index t (0 : Fin 2) = t.val ∧ win0_17.index t (1 : Fin 2) = 0 := by
    obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
    exact ⟨r17a, r17b⟩
  funext j
  have hj0 : (j 0).val < 512 := (j 0).isLt
  have hj1 : (j 1).val < 256 := (j 1).isLt
  have hj : j = ix2 (⟨(j 0).val, hj0⟩ : Fin 512) (⟨(j 1).val, hj1⟩ : Fin 256) := by
    funext a; match a with | ⟨0, _⟩ => rfl | ⟨1, _⟩ => rfl
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j
      = GX (a0 m c) (a1 m c) (a2 m c) (a3 m c) (a4 m c) (((cfg0.win 17).blk t).view.emb j)
  have he : ((cfg0.win 17).blk t).view.emb j
      = ix2 (⟨512 * t.val + (j 0).val, by have ht16 : t.val < 16 := t.isLt; omega⟩ : Fin 8192) (⟨(j 1).val, hj1⟩ : Fin 256) := by
    funext a; apply Fin.ext
    match a with
    | ⟨0, _⟩ => show win0_17.index t (0 : Fin 2) * 512 + 1 * (j 0).val = 512 * t.val + (j 0).val; omega
    | ⟨1, _⟩ => show win0_17.index t (1 : Fin 2) * 256 + 1 * (j 1).val = (j 1).val; omega
  rw [he, GX_apply, ← row_blk m c t ⟨(j 0).val, hj0⟩]
  refine Eq.trans (congrArg _ hj) ?_
  exact Block.out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ⟨(j 0).val, hj0⟩ ⟨(j 1).val, hj1⟩

/-! ## The sixteen blocks tile each result -/

theorem mem_blk16 (t : Fin cfg0.N) (i : S8192x1024.Idx) :
    i ∈ ((cfg0.win 16).blk t).view.set ↔ ∀ a : Fin 2, win0_16.index t a * S512x1024.size a ≤ (i a).val ∧ (i a).val < win0_16.index t a * S512x1024.size a + S512x1024.size a := by
  show i ∈ ((View.whole main_v16_0).slice (win0_16.rect t)).set ↔ _
  rw [View.set_slice_whole, Rect.mem_set_unit]
  exact Iff.rfl

theorem mem_blk17 (t : Fin cfg0.N) (i : S8192x256.Idx) :
    i ∈ ((cfg0.win 17).blk t).view.set ↔ ∀ a : Fin 2, win0_17.index t a * S512x256.size a ≤ (i a).val ∧ (i a).val < win0_17.index t a * S512x256.size a + S512x256.size a := by
  show i ∈ ((View.whole main_v16_1).slice (win0_17.rect t)).set ↔ _
  rw [View.set_slice_whole, Rect.mem_set_unit]
  exact Iff.rfl

theorem cover16 (i : S8192x1024.Idx) :
    ∃ t : Fin cfg0.N, (cfg0.win 16).flush t = true ∧ i ∈ ((cfg0.win 16).blk t).view.set := by
  have hi0 : (i 0).val < 8192 := (i 0).isLt
  have hi1 : (i 1).val < 1024 := (i 1).isLt
  let t : Fin cfg0.N := ⟨(i 0).val / 512, by show (i 0).val / 512 < 16; omega⟩
  have ht : t.val = (i 0).val / 512 := rfl
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 1024 ≤ (i 1).val ∧ (i 1).val < win0_16.index t (1 : Fin 2) * 1024 + 1024; omega

theorem cover17 (i : S8192x256.Idx) :
    ∃ t : Fin cfg0.N, (cfg0.win 17).flush t = true ∧ i ∈ ((cfg0.win 17).blk t).view.set := by
  have hi0 : (i 0).val < 8192 := (i 0).isLt
  have hi1 : (i 1).val < 256 := (i 1).isLt
  let t : Fin cfg0.N := ⟨(i 0).val / 512, by show (i 0).val / 512 < 16; omega⟩
  have ht : t.val = (i 0).val / 512 := rfl
  obtain ⟨r0a, r0b, r1a, r1b, r2a, r2b, r3a, r3b, r4a, r4b, r16a, r16b, r17a, r17b, k5a, k5b, k6a, k6b, k7a, k7b, k8a, k8b, k9a, k9b, k10a, k10b, k11a, k11b, k12a, k12b, k13a, k13b, k14a, k14b, k15a, k15b⟩ := idx_facts t
  refine ⟨t, flush0_17 t, ?_⟩
  rw [mem_blk17]
  intro a
  match a with
  | ⟨0, _⟩ => show win0_17.index t (0 : Fin 2) * 512 ≤ (i 0).val ∧ (i 0).val < win0_17.index t (0 : Fin 2) * 512 + 512; omega
  | ⟨1, _⟩ => show win0_17.index t (1 : Fin 2) * 256 ≤ (i 1).val ∧ (i 1).val < win0_17.index t (1 : Fin 2) * 256 + 256; omega

/-! ## The arrays after the run, and the run -/

section
variable [Cert.Pre_finite_inputs.Facts] (hpre : Cert.Pre_KernelIdeal m)
include hpre

theorem final16 (c : Dev nD) :
    (dats m 0 c).arrAt 16 cfg0.N = GH (Host.W m c) (a0 m c) (a1 m c) (a2 m c) (a3 m c) (a4 m c) :=
  (dats m 0 c).arrAt_eq_of_cover 16 (GH (Host.W m c) (a0 m c) (a1 m c) (a2 m c) (a3 m c) (a4 m c))
    (fun t _ => flushed16_eq m hpre c t) cover16

omit hpre in
theorem final17 (c : Dev nD) :
    (dats m 0 c).arrAt 17 cfg0.N = GX (a0 m c) (a1 m c) (a2 m c) (a3 m c) (a4 m c) :=
  (dats m 0 c).arrAt_eq_of_cover 17 (GX (a0 m c) (a1 m c) (a2 m c) (a3 m c) (a4 m c))
    (fun t _ => flushed17_eq m c t) cover17

/-- The kernel's run with both results named as the specification's functions of the arguments. -/
theorem run : θ_run defs (onTc (τ := τ) (main (F := Ideal))) ⟨m, fun _ => 0, ρ⟩ fun r => ∀ c : Dev nD,
      r.2.mem ((c : Thread nD τ).loc main_v16_0) = GH (Host.W m c) (a0 m c) (a1 m c) (a2 m c) (a3 m c) (a4 m c)
      ∧ r.2.mem ((c : Thread nD τ).loc main_v16_1) = GX (a0 m c) (a1 m c) (a2 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (final16 m hpre c), (h c).2.1.trans (final17 m c), (h c).2.2⟩)
    (Cert.KernelIdeal.Value.run_blocks m ρ)

end

end Cert.GruD.Final

end
-- ==== Proof.Ref.lean ====
/-
  The reference program computes the cell's step: its two results, read stage by stage at an index, are the
  new hidden state and the new last-observed values of the specification. The reference transposes each weight
  matrix before contracting, writes the logistic function as `1 / (1 + exp (-x))` and the decay with a
  negation; at the extended reals these are the specification's contractions against weight rows, its logistic
  function and its decay.
-/
import proofs.«415705_j78658031059226_3_alg».proof.Proof.Spec
import proofs.«415705_j78658031059226_3_alg».proof.Proof.Gen.ReferenceIdeal.Read
import Idealize.ShloMosaic.Lib.Pipeline.Value
import Idealize.ShloMosaic.Lib.ValueIdx
import Idealize.ShloMosaic.PureOps.Ideal.Laws
import Idealize.ShloMosaic.Lib.IdealHost

noncomputable section

namespace Cert.GruD.Ref

open Idealize.ShloMosaic Cert.ReferenceIdeal Cert.ReferenceIdeal.Read ValueIdx Cert.GruD

section Stages

variable (x0 x1 x2 : (⟨S8192x256, .f32⟩ : BufTy).Contents (Elt Ideal)) (x3 : (⟨S8192x1024, .f32⟩ : BufTy).Contents (Elt Ideal)) (x4 : (⟨S8192x256, .f32⟩ : BufTy).Contents (Elt Ideal)) (x5 x6 x7 : (⟨S256, .f32⟩ : BufTy).Contents (Elt Ideal)) (x8 : (⟨S1024x256, .f32⟩ : BufTy).Contents (Elt Ideal)) (x9 : (⟨S1024, .f32⟩ : BufTy).Contents (Elt Ideal)) (x10 : (⟨S1024x256, .f32⟩ : BufTy).Contents (Elt Ideal)) (x11 : (⟨S1024x1024, .f32⟩ : BufTy).Contents (Elt Ideal)) (x12 : (⟨S1024x256, .f32⟩ : BufTy).Contents (Elt Ideal)) (x13 : (⟨S1024, .f32⟩ : BufTy).Contents (Elt Ideal)) (x14 : (⟨S1024x256, .f32⟩ : BufTy).Contents (Elt Ideal)) (x15 : (⟨S1024x1024, .f32⟩ : BufTy).Contents (Elt Ideal)) (x16 : (⟨S1024x256, .f32⟩ : BufTy).Contents (Elt Ideal)) (x17 : (⟨S1024, .f32⟩ : BufTy).Contents (Elt Ideal)) (x18 : (⟨S1024x256, .f32⟩ : BufTy).Contents (Elt Ideal)) (x19 : (⟨S1024x1024, .f32⟩ : BufTy).Contents (Elt Ideal)) (x20 : (⟨S1024x256, .f32⟩ : BufTy).Contents (Elt Ideal)) (x21 : (⟨S1024, .f32⟩ : BufTy).Contents (Elt Ideal))

local notation "𝒲" => weightsOf x5 x6 x7 x8 x9 x10 x11 x12 x13 x14 x15 x16 x17 x18 x19 x20 x21
local notation "ρ" => rowAt x0 x1 x2 x3 x4

/-- The input decay: a broadcast row of weights and of biases, the rectifier against a broadcast zero, a
    negation and the exponential. -/
theorem gx_at (b : Fin 8192) (d : Fin 256) :
    val_main_v8 (F := Ideal) x2 x6 x7 (ix2 b d) = gammaX 𝒲 (ρ b) d := by
  have e6 : idx_main_v0 (idx_main_v1 (ix2 b d)) = ix1 d := funext fun a => match a with | ⟨0, _⟩ => rfl
  have e7 : idx_main_v3 (idx_main_v4 (ix2 b d)) = ix1 d := funext fun a => match a with | ⟨0, _⟩ => rfl
  rw [val_main_v8_apply, val_main_v7_apply, val_main_v6_apply, val_main_v5_apply, val_main_v2_apply,
    val_main_v1_apply, val_main_v0_apply, val_main_v4_apply, val_main_v3_apply, val_main_call0_v0_apply,
    val_main_call0_cst_apply, e6, e7]
  simp only [Ideal.hostUnary_exp_def, Ideal.hostNegf_def, Ideal.negf_def, Ideal.maximumf_def, Ideal.addf_def,
    Ideal.mulf_def, Ideal.ofBits_def, Ideal.ofBits_zero_f32]
  rfl

/-- The hidden decay: the gaps contracted against the transposed weights are contracted against a weight row. -/
theorem gh_at (b : Fin 8192) (n : Fin 1024) :
    val_main_v16 (F := Ideal) x2 x8 x9 (ix2 b n) = gammaH 𝒲 (ρ b) n := by
  have e9 : idx_main_v11 (idx_main_v12 (ix2 b n)) = ix1 n := funext fun a => match a with | ⟨0, _⟩ => rfl
  have hdot : val_main_v10 (F := Ideal) x2 x8 (ix2 b n) = dotRow ((ρ b).δ) ((𝒲).Wgh n) := by
    rw [val_main_v10_apply]
    unfold dotRow
    refine Finset.sum_congr rfl fun k _ => ?_
    have el : lidx_main_v10 (ix2 b n) k = ix2 b k := funext fun a => match a with | ⟨0, _⟩ => rfl | ⟨1, _⟩ => rfl
    have er : idx_main_v9 (ridx_main_v10 (ix2 b n) k) = ix2 n k := funext fun a => match a with | ⟨0, _⟩ => rfl | ⟨1, _⟩ => rfl
    rw [val_main_v9_apply, el, er]
    rfl
  rw [val_main_v16_apply, val_main_v15_apply, val_main_v14_apply, val_main_v13_apply, hdot,
    val_main_v12_apply, val_main_v11_apply, val_main_call1_v0_apply, val_main_call1_cst_apply, e9]
  simp only [Ideal.hostUnary_exp_def, Ideal.hostNegf_def, Ideal.negf_def, Ideal.maximumf_def, Ideal.addf_def,
    Ideal.ofBits_def, Ideal.ofBits_zero_f32]
  rfl

/-- The last observed value: a comparison against a broadcast zero, then a selection. -/
theorem last_at (b : Fin 8192) (d : Fin 256) :
    val_main_v19 (F := Ideal) x0 x1 x4 (ix2 b d) = lastObs (ρ b) d := by
  rw [val_main_v19_apply, val_main_v18_apply, val_main_v17_apply, val_main_cst_apply]
  simp only [Ideal.cmpf_def, Ideal.ofBits_def, Ideal.ofBits_zero_f32]
  rfl

/-- The imputed input: the observation where it is present, else the decayed last value drawn towards the mean. -/
theorem xhat_at (b : Fin 8192) (d : Fin 256) :
    val_main_v31 (F := Ideal) x0 x1 x2 x4 x5 x6 x7 (ix2 b d) = xHat 𝒲 (ρ b) d := by
  have e5 : idx_main_v23 (idx_main_v24 (ix2 b d)) = ix1 d := funext fun a => match a with | ⟨0, _⟩ => rfl
  rw [val_main_v31_apply, val_main_v27_apply, val_main_v30_apply, val_main_v29_apply, val_main_v28_apply,
    val_main_cst_1_apply, val_main_v26_apply, val_main_v20_apply, val_main_v25_apply, val_main_v22_apply,
    val_main_v21_apply, val_main_cst_0_apply, val_main_v24_apply, val_main_v23_apply, e5,
    gx_at x0 x1 x2 x3 x4 x5 x6 x7 x8 x9 x10 x11 x12 x13 x14 x15 x16 x17 x18 x19 x20 x21 b d,
    last_at x0 x1 x2 x3 x4 b d]
  simp only [Ideal.hostUnary_exp_def, Ideal.hostUnary_tanh_def, Ideal.hostNegf_def, Ideal.negf_def, Ideal.hostDivf_def, Ideal.addf_def, Ideal.subf_def,
    Ideal.mulf_def, Ideal.ofBits_def, Ideal.ofBits_one_f32]
  rfl

/-- The decayed hidden state. -/
theorem hd_at (b : Fin 8192) (n : Fin 1024) :
    val_main_v32 (F := Ideal) x2 x3 x8 x9 (ix2 b n) = hDec 𝒲 (ρ b) n := by
  rw [val_main_v32_apply, gh_at x0 x1 x2 x3 x4 x5 x6 x7 x8 x9 x10 x11 x12 x13 x14 x15 x16 x17 x18 x19 x20 x21 b n]
  rfl

/-- The update gate's input contribution. -/
theorem dz_x (b : Fin 8192) (n : Fin 1024) :
    val_main_v34 (F := Ideal) x0 x1 x2 x4 x5 x6 x7 x10 (ix2 b n) = dotRow (xHat 𝒲 (ρ b)) ((𝒲).Wxz n) := by
  rw [val_main_v34_apply]
  unfold dotRow
  refine Finset.sum_congr rfl fun k _ => ?_
  have el : lidx_main_v34 (ix2 b n) k = ix2 b k := funext fun a => match a with | ⟨0, _⟩ => rfl | ⟨1, _⟩ => rfl
  have er : idx_main_v33 (ridx_main_v34 (ix2 b n) k) = ix2 n k := funext fun a => match a with | ⟨0, _⟩ => rfl | ⟨1, _⟩ => rfl
  rw [val_main_v33_apply, el, er, xhat_at x0 x1 x2 x3 x4 x5 x6 x7 x8 x9 x10 x11 x12 x13 x14 x15 x16 x17 x18 x19 x20 x21 b k]
  rfl

/-- The update gate's hidden contribution. -/
theorem dz_h (b : Fin 8192) (n : Fin 1024) :
    val_main_v36 (F := Ideal) x2 x3 x8 x9 x11 (ix2 b n) = dotRow (hDec 𝒲 (ρ b)) ((𝒲).Whz n) := by
  rw [val_main_v36_apply]
  unfold dotRow
  refine Finset.sum_congr rfl fun k _ => ?_
  have el : lidx_main_v36 (ix2 b n) k = ix2 b k := funext fun a => match a with | ⟨0, _⟩ => rfl | ⟨1, _⟩ => rfl
  have er : idx_main_v35 (ridx_main_v36 (ix2 b n) k) = ix2 n k := funext fun a => match a with | ⟨0, _⟩ => rfl | ⟨1, _⟩ => rfl
  rw [val_main_v35_apply, el, er, hd_at x0 x1 x2 x3 x4 x5 x6 x7 x8 x9 x10 x11 x12 x13 x14 x15 x16 x17 x18 x19 x20 x21 b k]
  rfl

/-- The update gate's mask contribution. -/
theorem dz_m (b : Fin 8192) (n : Fin 1024) :
    val_main_v39 (F := Ideal) x1 x12 (ix2 b n) = dotRow ((ρ b).m) ((𝒲).Wmz n) := by
  rw [val_main_v39_apply]
  unfold dotRow
  refine Finset.sum_congr rfl fun k _ => ?_
  have el : lidx_main_v39 (ix2 b n) k = ix2 b k := funext fun a => match a with | ⟨0, _⟩ => rfl | ⟨1, _⟩ => rfl
  have er : idx_main_v38 (ridx_main_v39 (ix2 b n) k) = ix2 n k := funext fun a => match a with | ⟨0, _⟩ => rfl | ⟨1, _⟩ => rfl
  rw [val_main_v38_apply, el, er]
  rfl

/-- The reset gate's input contribution. -/
theorem dr_x (b : Fin 8192) (n : Fin 1024) :
    val_main_v51 (F := Ideal) x0 x1 x2 x4 x5 x6 x7 x14 (ix2 b n) = dotRow (xHat 𝒲 (ρ b)) ((𝒲).Wxr n) := by
  rw [val_main_v51_apply]
  unfold dotRow
  refine Finset.sum_congr rfl fun k _ => ?_
  have el : lidx_main_v51 (ix2 b n) k = ix2 b k := funext fun a => match a with | ⟨0, _⟩ => rfl | ⟨1, _⟩ => rfl
  have er : idx_main_v50 (ridx_main_v51 (ix2 b n) k) = ix2 n k := funext fun a => match a with | ⟨0, _⟩ => rfl | ⟨1, _⟩ => rfl
  rw [val_main_v50_apply, el, er, xhat_at x0 x1 x2 x3 x4 x5 x6 x7 x8 x9 x10 x11 x12 x13 x14 x15 x16 x17 x18 x19 x20 x21 b k]
  rfl

/-- The reset gate's hidden contribution. -/
theorem dr_h (b : Fin 8192) (n : Fin 1024) :
    val_main_v53 (F := Ideal) x2 x3 x8 x9 x15 (ix2 b n) = dotRow (hDec 𝒲 (ρ b)) ((𝒲).Whr n) := by
  rw [val_main_v53_apply]
  unfold dotRow
  refine Finset.sum_congr rfl fun k _ => ?_
  have el : lidx_main_v53 (ix2 b n) k = ix2 b k := funext fun a => match a with | ⟨0, _⟩ => rfl | ⟨1, _⟩ => rfl
  have er : idx_main_v52 (ridx_main_v53 (ix2 b n) k) = ix2 n k := funext fun a => match a with | ⟨0, _⟩ => rfl | ⟨1, _⟩ => rfl
  rw [val_main_v52_apply, el, er, hd_at x0 x1 x2 x3 x4 x5 x6 x7 x8 x9 x10 x11 x12 x13 x14 x15 x16 x17 x18 x19 x20 x21 b k]
  rfl

/-- The reset gate's mask contribution. -/
theorem dr_m (b : Fin 8192) (n : Fin 1024) :
    val_main_v56 (F := Ideal) x1 x16 (ix2 b n) = dotRow ((ρ b).m) ((𝒲).Wmr n) := by
  rw [val_main_v56_apply]
  unfold dotRow
  refine Finset.sum_congr rfl fun k _ => ?_
  have el : lidx_main_v56 (ix2 b n) k = ix2 b k := funext fun a => match a with | ⟨0, _⟩ => rfl | ⟨1, _⟩ => rfl
  have er : idx_main_v55 (ridx_main_v56 (ix2 b n) k) = ix2 n k := funext fun a => match a with | ⟨0, _⟩ => rfl | ⟨1, _⟩ => rfl
  rw [val_main_v55_apply, el, er]
  rfl

/-- The candidate's input contribution. -/
theorem dh_x (b : Fin 8192) (n : Fin 1024) :
    val_main_v68 (F := Ideal) x0 x1 x2 x4 x5 x6 x7 x18 (ix2 b n) = dotRow (xHat 𝒲 (ρ b)) ((𝒲).Wxh n) := by
  rw [val_main_v68_apply]
  unfold dotRow
  refine Finset.sum_congr rfl fun k _ => ?_
  have el : lidx_main_v68 (ix2 b n) k = ix2 b k := funext fun a => match a with | ⟨0, _⟩ => rfl | ⟨1, _⟩ => rfl
  have er : idx_main_v67 (ridx_main_v68 (ix2 b n) k) = ix2 n k := funext fun a => match a with | ⟨0, _⟩ => rfl | ⟨1, _⟩ => rfl
  rw [val_main_v67_apply, el, er, xhat_at x0 x1 x2 x3 x4 x5 x6 x7 x8 x9 x10 x11 x12 x13 x14 x15 x16 x17 x18 x19 x20 x21 b k]
  rfl

/-- The candidate's mask contribution. -/
theorem dh_m (b : Fin 8192) (n : Fin 1024) :
    val_main_v74 (F := Ideal) x1 x20 (ix2 b n) = dotRow ((ρ b).m) ((𝒲).Wmh n) := by
  rw [val_main_v74_apply]
  unfold dotRow
  refine Finset.sum_congr rfl fun k _ => ?_
  have el : lidx_main_v74 (ix2 b n) k = ix2 b k := funext fun a => match a with | ⟨0, _⟩ => rfl | ⟨1, _⟩ => rfl
  have er : idx_main_v73 (ridx_main_v74 (ix2 b n) k) = ix2 n k := funext fun a => match a with | ⟨0, _⟩ => rfl | ⟨1, _⟩ => rfl
  rw [val_main_v73_apply, el, er]
  rfl

/-- The update gate: the three contributions and the bias, then `1 / (1 + exp (-·))`, which is the logistic function. -/
theorem z_at (b : Fin 8192) (n : Fin 1024) :
    val_main_v49 (F := Ideal) x0 x1 x2 x3 x4 x5 x6 x7 x8 x9 x10 x11 x12 x13 (ix2 b n) = zGate 𝒲 (ρ b) n := by
  have eb : idx_main_v41 (idx_main_v42 (ix2 b n)) = ix1 n := funext fun a => match a with | ⟨0, _⟩ => rfl
  rw [val_main_v49_apply, val_main_v48_apply, val_main_cst_3_apply, val_main_v47_apply, val_main_v46_apply,
    val_main_cst_2_apply, val_main_v45_apply, val_main_v44_apply, val_main_v43_apply, val_main_v40_apply,
    val_main_v37_apply, val_main_v42_apply, val_main_v41_apply, eb,
    dz_x x0 x1 x2 x3 x4 x5 x6 x7 x8 x9 x10 x11 x12 x13 x14 x15 x16 x17 x18 x19 x20 x21 b n, dz_h x0 x1 x2 x3 x4 x5 x6 x7 x8 x9 x10 x11 x12 x13 x14 x15 x16 x17 x18 x19 x20 x21 b n, dz_m x0 x1 x2 x3 x4 x5 x6 x7 x8 x9 x10 x11 x12 x13 x14 x15 x16 x17 x18 x19 x20 x21 b n]
  simp only [Ideal.hostUnary_exp_def, Ideal.hostUnary_tanh_def, Ideal.hostNegf_def, Ideal.negf_def, Ideal.hostDivf_def, Ideal.addf_def, Ideal.subf_def,
    Ideal.mulf_def, Ideal.ofBits_def, Ideal.ofBits_one_f32]
  rfl

/-- The reset gate. -/
theorem r_at (b : Fin 8192) (n : Fin 1024) :
    val_main_v66 (F := Ideal) x0 x1 x2 x3 x4 x5 x6 x7 x8 x9 x14 x15 x16 x17 (ix2 b n) = rGate 𝒲 (ρ b) n := by
  have eb : idx_main_v58 (idx_main_v59 (ix2 b n)) = ix1 n := funext fun a => match a with | ⟨0, _⟩ => rfl
  rw [val_main_v66_apply, val_main_v65_apply, val_main_cst_5_apply, val_main_v64_apply, val_main_v63_apply,
    val_main_cst_4_apply, val_main_v62_apply, val_main_v61_apply, val_main_v60_apply, val_main_v57_apply,
    val_main_v54_apply, val_main_v59_apply, val_main_v58_apply, eb,
    dr_x x0 x1 x2 x3 x4 x5 x6 x7 x8 x9 x10 x11 x12 x13 x14 x15 x16 x17 x18 x19 x20 x21 b n, dr_h x0 x1 x2 x3 x4 x5 x6 x7 x8 x9 x10 x11 x12 x13 x14 x15 x16 x17 x18 x19 x20 x21 b n, dr_m x0 x1 x2 x3 x4 x5 x6 x7 x8 x9 x10 x11 x12 x13 x14 x15 x16 x17 x18 x19 x20 x21 b n]
  simp only [Ideal.hostUnary_exp_def, Ideal.hostUnary_tanh_def, Ideal.hostNegf_def, Ideal.negf_def, Ideal.hostDivf_def, Ideal.addf_def, Ideal.subf_def,
    Ideal.mulf_def, Ideal.ofBits_def, Ideal.ofBits_one_f32]
  rfl

/-- The candidate's hidden contribution: the reset gate times the decayed state, contracted against a weight row. -/
theorem dh_h (b : Fin 8192) (n : Fin 1024) :
    val_main_v71 (F := Ideal) x0 x1 x2 x3 x4 x5 x6 x7 x8 x9 x14 x15 x16 x17 x19 (ix2 b n)
      = dotRow (fun k => rGate 𝒲 (ρ b) k * hDec 𝒲 (ρ b) k) ((𝒲).Whh n) := by
  rw [val_main_v71_apply]
  unfold dotRow
  refine Finset.sum_congr rfl fun k _ => ?_
  have el : lidx_main_v71 (ix2 b n) k = ix2 b k := funext fun a => match a with | ⟨0, _⟩ => rfl | ⟨1, _⟩ => rfl
  have er : idx_main_v70 (ridx_main_v71 (ix2 b n) k) = ix2 n k := funext fun a => match a with | ⟨0, _⟩ => rfl | ⟨1, _⟩ => rfl
  rw [val_main_v70_apply, el, er, val_main_v69_apply, r_at x0 x1 x2 x3 x4 x5 x6 x7 x8 x9 x10 x11 x12 x13 x14 x15 x16 x17 x18 x19 x20 x21 b k, hd_at x0 x1 x2 x3 x4 x5 x6 x7 x8 x9 x10 x11 x12 x13 x14 x15 x16 x17 x18 x19 x20 x21 b k]
  rfl

/-- The candidate state. -/
theorem ht_at (b : Fin 8192) (n : Fin 1024) :
    val_main_v79 (F := Ideal) x0 x1 x2 x3 x4 x5 x6 x7 x8 x9 x14 x15 x16 x17 x18 x19 x20 x21 (ix2 b n) = hTilde 𝒲 (ρ b) n := by
  have eb : idx_main_v76 (idx_main_v77 (ix2 b n)) = ix1 n := funext fun a => match a with | ⟨0, _⟩ => rfl
  rw [val_main_v79_apply, val_main_v78_apply, val_main_v75_apply, val_main_v72_apply, val_main_v77_apply,
    val_main_v76_apply, eb, dh_x x0 x1 x2 x3 x4 x5 x6 x7 x8 x9 x10 x11 x12 x13 x14 x15 x16 x17 x18 x19 x20 x21 b n, dh_h x0 x1 x2 x3 x4 x5 x6 x7 x8 x9 x10 x11 x12 x13 x14 x15 x16 x17 x18 x19 x20 x21 b n, dh_m x0 x1 x2 x3 x4 x5 x6 x7 x8 x9 x10 x11 x12 x13 x14 x15 x16 x17 x18 x19 x20 x21 b n]
  simp only [Ideal.hostUnary_exp_def, Ideal.hostUnary_tanh_def, Ideal.hostNegf_def, Ideal.negf_def, Ideal.hostDivf_def, Ideal.addf_def, Ideal.subf_def,
    Ideal.mulf_def, Ideal.ofBits_def, Ideal.ofBits_one_f32]
  rfl

/-- The new hidden state at an index. -/
theorem hnew_at (b : Fin 8192) (n : Fin 1024) :
    val_main_v84 (F := Ideal) x0 x1 x2 x3 x4 x5 x6 x7 x8 x9 x10 x11 x12 x13 x14 x15 x16 x17 x18 x19 x20 x21 (ix2 b n) = hNew 𝒲 (ρ b) n := by
  rw [val_main_v84_apply, val_main_v82_apply, val_main_v81_apply, val_main_v80_apply, val_main_cst_6_apply,
    val_main_v83_apply, z_at x0 x1 x2 x3 x4 x5 x6 x7 x8 x9 x10 x11 x12 x13 x14 x15 x16 x17 x18 x19 x20 x21 b n, hd_at x0 x1 x2 x3 x4 x5 x6 x7 x8 x9 x10 x11 x12 x13 x14 x15 x16 x17 x18 x19 x20 x21 b n, ht_at x0 x1 x2 x3 x4 x5 x6 x7 x8 x9 x10 x11 x12 x13 x14 x15 x16 x17 x18 x19 x20 x21 b n]
  simp only [Ideal.hostUnary_exp_def, Ideal.hostUnary_tanh_def, Ideal.hostNegf_def, Ideal.negf_def, Ideal.hostDivf_def, Ideal.addf_def, Ideal.subf_def,
    Ideal.mulf_def, Ideal.ofBits_def, Ideal.ofBits_one_f32]
  rfl

end Stages

/-- The reference's first result is the new hidden state. -/
theorem ref_h (x0 x1 x2 : (⟨S8192x256, .f32⟩ : BufTy).Contents (Elt Ideal)) (x3 : (⟨S8192x1024, .f32⟩ : BufTy).Contents (Elt Ideal)) (x4 : (⟨S8192x256, .f32⟩ : BufTy).Contents (Elt Ideal)) (x5 x6 x7 : (⟨S256, .f32⟩ : BufTy).Contents (Elt Ideal)) (x8 : (⟨S1024x256, .f32⟩ : BufTy).Contents (Elt Ideal)) (x9 : (⟨S1024, .f32⟩ : BufTy).Contents (Elt Ideal)) (x10 : (⟨S1024x256, .f32⟩ : BufTy).Contents (Elt Ideal)) (x11 : (⟨S1024x1024, .f32⟩ : BufTy).Contents (Elt Ideal)) (x12 : (⟨S1024x256, .f32⟩ : BufTy).Contents (Elt Ideal)) (x13 : (⟨S1024, .f32⟩ : BufTy).Contents (Elt Ideal)) (x14 : (⟨S1024x256, .f32⟩ : BufTy).Contents (Elt Ideal)) (x15 : (⟨S1024x1024, .f32⟩ : BufTy).Contents (Elt Ideal)) (x16 : (⟨S1024x256, .f32⟩ : BufTy).Contents (Elt Ideal)) (x17 : (⟨S1024, .f32⟩ : BufTy).Contents (Elt Ideal)) (x18 : (⟨S1024x256, .f32⟩ : BufTy).Contents (Elt Ideal)) (x19 : (⟨S1024x1024, .f32⟩ : BufTy).Contents (Elt Ideal)) (x20 : (⟨S1024x256, .f32⟩ : BufTy).Contents (Elt Ideal)) (x21 : (⟨S1024, .f32⟩ : BufTy).Contents (Elt Ideal)) :
    val_main_v84 (F := Ideal) x0 x1 x2 x3 x4 x5 x6 x7 x8 x9 x10 x11 x12 x13 x14 x15 x16 x17 x18 x19 x20 x21
      = GH (weightsOf x5 x6 x7 x8 x9 x10 x11 x12 x13 x14 x15 x16 x17 x18 x19 x20 x21) x0 x1 x2 x3 x4 := by
  funext j
  obtain ⟨b, n, rfl⟩ : ∃ (b : Fin 8192) (n : Fin 1024), j = ix2 b n := ⟨j 0, j 1, eq_ix2 j⟩
  rw [GH_apply]
  exact hnew_at x0 x1 x2 x3 x4 x5 x6 x7 x8 x9 x10 x11 x12 x13 x14 x15 x16 x17 x18 x19 x20 x21 b n

/-- The reference's second result is the new last-observed values. -/
theorem ref_x (x0 x1 x2 : (⟨S8192x256, .f32⟩ : BufTy).Contents (Elt Ideal)) (x3 : (⟨S8192x1024, .f32⟩ : BufTy).Contents (Elt Ideal)) (x4 : (⟨S8192x256, .f32⟩ : BufTy).Contents (Elt Ideal)) :
    val_main_v19 (F := Ideal) x0 x1 x4 = GX x0 x1 x2 x3 x4 := by
  funext j
  obtain ⟨b, d, rfl⟩ : ∃ (b : Fin 8192) (d : Fin 256), j = ix2 b d := ⟨j 0, j 1, eq_ix2 j⟩
  rw [GX_apply]
  exact last_at x0 x1 x2 x3 x4 b d

end Cert.GruD.Ref

end
-- ==== Proof.lean ====
/-
  The certificate of the decay-gated recurrent cell's kernel against its reference.

  The kernel fuses the cell's ten matrix products into six: each gate's input and mask weights laid side by side,
  the update and reset gates stacked, and the decayed hidden state multiplied once as it is and once through the
  remainder left after a change of float format. On the extended reals a change of format is the identity, so that
  remainder is `hd - hd`, which vanishes because the decayed hidden state is finite: a decay factor lies in [0, 1]
  and the hidden state is finite by the precondition. A contraction over rows laid side by side is the sum of the
  two contractions, and sums regroup freely; the kernel's logistic function is the reference's
  `1 / (1 + exp (-x))` and its decay `exp (0 - max y 0)` the reference's `exp (-(max y 0))`. Hence both programs
  end with the specification's new hidden state and new last-observed values (module Spec) — the kernel block by
  block over its sixteen grid points (modules KPay, KBlock, KHost, KFinal), the reference stage by stage (module
  Ref). The three frames are the generated ones; the one entry of the idealization's ledger is its rule's
  statement.
-/
import proofs.«415705_j78658031059226_3_alg».proof.Defs
import proofs.«415705_j78658031059226_3_alg».proof.Proof.Gen.Kernel
import proofs.«415705_j78658031059226_3_alg».proof.Proof.Gen.Kernel.Skeleton
import proofs.«415705_j78658031059226_3_alg».proof.Proof.Gen.Kernel.Launch
import proofs.«415705_j78658031059226_3_alg».proof.Proof.Gen.Kernel.Points
import proofs.«415705_j78658031059226_3_alg».proof.Proof.Gen.Kernel.Frame
import proofs.«415705_j78658031059226_3_alg».proof.Proof.Gen.KernelIdeal
import proofs.«415705_j78658031059226_3_alg».proof.Proof.Gen.KernelIdeal.Skeleton
import proofs.«415705_j78658031059226_3_alg».proof.Proof.Gen.KernelIdeal.Launch
import proofs.«415705_j78658031059226_3_alg».proof.Proof.Gen.KernelIdeal.Points
import proofs.«415705_j78658031059226_3_alg».proof.Proof.Gen.KernelIdeal.Frame
import proofs.«415705_j78658031059226_3_alg».proof.Proof.Gen.ReferenceIdeal
import proofs.«415705_j78658031059226_3_alg».proof.Proof.Gen.Pre_finite_inputs
import proofs.«415705_j78658031059226_3_alg».proof.Proof.Gen.KernelIdeal.Value
import proofs.«415705_j78658031059226_3_alg».proof.Proof.Gen.ReferenceIdeal.Run
import proofs.«415705_j78658031059226_3_alg».proof.Proof.Gen.ReferenceIdeal.Read
import proofs.«415705_j78658031059226_3_alg».proof.Proof.KFinal
import proofs.«415705_j78658031059226_3_alg».proof.Proof.Ref
import Idealize.ShloMosaic.Adequacy
import Idealize.ShloMosaic.Init

noncomputable section

namespace Cert.Proof

open Idealize.ShloMosaic Idealize.ShloMosaic.TcCoe Idealize.SL.Sem Cert.GruD

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ledger's one entry: widening back what was just narrowed is the identity on the extended reals. -/
theorem preserves : Cert.preserves_Kernel_KernelIdeal :=
  IdealRules.truncf_extf.statement Cert.KernelIdeal.S512x1024 .f32 .bf16

/-- Both programs end with the specification's two results of arguments that agree. -/
theorem algebraic : Cert.algebraic_KernelIdeal_ReferenceIdeal := by
  intro m ρ m' ρ' hpre hagree
  refine ⟨fun c => GH (Host.W m c) (Final.a0 m c) (Final.a1 m c) (Final.a2 m c) (Final.a3 m c) (Final.a4 m c),
    fun c => GX (Final.a0 m c) (Final.a1 m c) (Final.a2 m c) (Final.a3 m c) (Final.a4 m c),
    Final.run m ρ hpre, ?_⟩
  refine (θ_run Cert.ReferenceIdeal.defs _ _).mono (fun r h c => ?_) (Cert.ReferenceIdeal.Value.run (F := Ideal) m' ρ')
  obtain ⟨h84, h19, hkept⟩ := h c
  obtain ⟨e0, e1, e2, e3, e4, e5, e6, e7, e8, e9, e10, e11, e12, e13, e14, e15, e16, e17, e18, e19, e20, e21⟩ := hagree c
  refine ⟨?_, ?_, hkept⟩
  · rw [h84, Cert.ReferenceIdeal.Read.val_main_v84_eq, Ref.ref_h, e0, e1, e2, e3, e4, e5, e6, e7, e8, e9, e10, e11, e12, e13, e14, e15, e16, e17, e18, e19, e20, e21]
    rfl
  · rw [h19, Cert.ReferenceIdeal.Read.val_main_v19_eq,
      Ref.ref_x _ _ (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) _,
      e0, e1, e2, e3, e4]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, preserves, algebraic⟩

end Cert.Proof

end
